-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x256 : Shape := ⟨2, ![1000000, 256]⟩
abbrev S1000x64 : Shape := ⟨2, ![1000, 64]⟩
abbrev S1000 : Shape := ⟨1, ![1000]⟩
abbrev S1024x64 : Shape := ⟨2, ![1024, 64]⟩
abbrev S1000000 : Shape := ⟨1, ![1000000]⟩
abbrev S256x1 : Shape := ⟨2, ![256, 1]⟩
abbrev S1 : Shape := ⟨1, ![1]⟩
abbrev S_ : Shape := ⟨0, ![]⟩

class Facts : Prop where
  bcast_S_S1000000x256 : S_.BroadcastsInDim S1000000x256 (![] : Fin 0 → Fin S1000000x256.rank)
  reducesTo_S1000000x256_S_d0_1 : S1000000x256.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S1024x64 : S_.BroadcastsInDim S1024x64 (![] : Fin 0 → Fin S1024x64.rank)
  reducesTo_S1024x64_S_d0_1 : S1024x64.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg8 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg8
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1000000x256 .f32) (main_arg1 : FVec F S1000x64 .f32) (main_arg2 : IVec S1000 32) (main_arg3 : IVec S1000 32) (main_arg4 : FVec F S1024x64 .f32) (main_arg5 : IVec S1000000 32) (main_arg6 : IVec S1000 32) (main_arg7 : FVec F S256x1 .f32) (main_arg8 : FVec F S1 .f32) : IVec S_ 1 :=
  let main_v0 : FVec F S1000000x256 .f32 := Host.absf main_arg0
  let main_cst : FVec F S_ .f32 := constant S_ .f32 0x7F800000#32
  let main_v1 : FVec F S1000000x256 .f32 := broadcastInDim S1000000x256 ![] bcast_S_S1000000x256 main_cst
  let main_v2 : IVec S1000000x256 1 := cmpf .olt main_v0 main_v1
  let main_c : IVec S_ 1 := constantI S_ 1 1#1
  let main_v3 : IVec S_ 1 := (fun x v => Host.reduce IntOp.andi x v reducesTo_S1000000x256_S_d0_1 h_S_) main_v2 main_c
  let main_v4 : FVec F S1000x64 .f32 := Host.absf main_arg1
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S1024x64 .f32 := Host.absf main_arg4
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S256x1 .f32 := Host.absf main_arg7
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg8 main_v13 main_v16
-- ==== Kernel.lean ====
abbrev S1000000x256 : Shape := ⟨2, ![1000000, 256]⟩
abbrev S1000x64 : Shape := ⟨2, ![1000, 64]⟩
abbrev S1000 : Shape := ⟨1, ![1000]⟩
abbrev S1024x64 : Shape := ⟨2, ![1024, 64]⟩
abbrev S1000000 : Shape := ⟨1, ![1000000]⟩
abbrev S256x1 : Shape := ⟨2, ![256, 1]⟩
abbrev S1 : Shape := ⟨1, ![1]⟩
abbrev S1000000x1 : Shape := ⟨2, ![1000000, 1]⟩
abbrev S2x1024x256 : Shape := ⟨3, ![2, 1024, 256]⟩
abbrev S2x1024x8 : Shape := ⟨3, ![2, 1024, 8]⟩
abbrev S2000x256 : Shape := ⟨2, ![2000, 256]⟩
abbrev S2000x1 : Shape := ⟨2, ![2000, 1]⟩
abbrev S1x1024x256 : Shape := ⟨3, ![1, 1024, 256]⟩
abbrev S1x1024x8 : Shape := ⟨3, ![1, 1024, 8]⟩
abbrev S1024x256 : Shape := ⟨2, ![1024, 256]⟩
abbrev S1024x8 : Shape := ⟨2, ![1024, 8]⟩
abbrev S2000x1024 : Shape := ⟨2, ![2000, 1024]⟩
abbrev S2000x8 : Shape := ⟨2, ![2000, 8]⟩
abbrev S_ : Shape := ⟨0, ![]⟩
abbrev S2x1024x1 : Shape := ⟨3, ![2, 1024, 1]⟩
abbrev S2x1024 : Shape := ⟨2, ![2, 1024]⟩
abbrev S1024 : Shape := ⟨1, ![1024]⟩
abbrev S1024x1 : Shape := ⟨2, ![1024, 1]⟩
abbrev S1x1 : Shape := ⟨2, ![1, 1]⟩

abbrev nBuf : Space → Nat
  | .hbm => 45
  | .vmem => 11
  | .smem => 0
  | _ => 0

abbrev bufTy : (tb : Table) → Fin (tcTables nBuf tb) → BufTy
  | .hbm, ⟨0, _⟩ => ⟨S1000000x256, .f32⟩
  | .hbm, ⟨1, _⟩ => ⟨S1000x64, .f32⟩
  | .hbm, ⟨2, _⟩ => ⟨S1000, .i32⟩
  | .hbm, ⟨3, _⟩ => ⟨S1000, .i32⟩
  | .hbm, ⟨4, _⟩ => ⟨S1024x64, .f32⟩
  | .hbm, ⟨5, _⟩ => ⟨S1000000, .i32⟩
  | .hbm, ⟨6, _⟩ => ⟨S1000, .i32⟩
  | .hbm, ⟨7, _⟩ => ⟨S256x1, .f32⟩
  | .hbm, ⟨8, _⟩ => ⟨S1, .f32⟩
  | .hbm, ⟨9, _⟩ => ⟨S1000000x1, .i32⟩
  | .hbm, ⟨10, _⟩ => ⟨S2x1024x256, .f32⟩
  | .hbm, ⟨11, _⟩ => ⟨S2x1024x8, .f32⟩
  | .hbm, ⟨12, _⟩ => ⟨S_, .f32⟩
  | .hbm, ⟨13, _⟩ => ⟨S1024x256, .f32⟩
  | .hbm, ⟨14, _⟩ => ⟨S2x1024x1, .f32⟩
  | .hbm, ⟨15, _⟩ => ⟨S2x1024, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .i1⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024x1, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S_, .f32⟩
  | .hbm, ⟨30, _⟩ => ⟨S1024x256, .i1⟩
  | .hbm, ⟨31, _⟩ => ⟨S1024x256, .f32⟩
  | .hbm, ⟨32, _⟩ => ⟨S1024x256, .f32⟩
  | .hbm, ⟨33, _⟩ => ⟨S1024x1, .f32⟩
  | .hbm, ⟨34, _⟩ => ⟨S1x1, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .local _ .vmem, ⟨0, _⟩ => ⟨S2000x256, .f32⟩
  | .local _ .vmem, ⟨1, _⟩ => ⟨S2000x256, .f32⟩
  | .local _ .vmem, ⟨2, _⟩ => ⟨S2000x1, .i32⟩
  | .local _ .vmem, ⟨3, _⟩ => ⟨S2000x1, .i32⟩
  | .local _ .vmem, ⟨4, _⟩ => ⟨S1x1024x256, .f32⟩
  | .local _ .vmem, ⟨5, _⟩ => ⟨S1x1024x256, .f32⟩
  | .local _ .vmem, ⟨6, _⟩ => ⟨S1x1024x8, .f32⟩
  | .local _ .vmem, ⟨7, _⟩ => ⟨S1x1024x8, .f32⟩
  | .local _ .vmem, ⟨8, _⟩ => ⟨S1024x256, .f32⟩
  | .local _ .vmem, ⟨9, _⟩ => ⟨S1024x8, .f32⟩
  | .local _ .vmem, ⟨10, _⟩ => ⟨S2000x1024, .i32⟩
  | _, _ => ⟨S1000000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 250], ![false, false]⟩

def k0_cond2 (i : grid0.Coords) : BitVec 1 :=
  let arg1 : BitVec 32 := BitVec.ofNat 32 (i 1).val
  let c249_i32 : BitVec 32 := 249#32
  let v26 : BitVec 1 := Scalar.cmpi .eq arg1 c249_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1000000_S1000000x1 : S1000000.ShapeCasts S1000000x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  iota_S2000x1024_d1_w32 : S2000x1024.Iotas .tc 32 [1]
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  natLt_1_32 : 1 < 32
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  shapeCasts_S1024x8_S1x1024x8 : S1024x8.ShapeCasts S1x1024x8
  reducesTo_S2x1024x256_S1024x256_d0 : S2x1024x256.ReducesTo [0] S1024x256
  h_S_ : 0 < S_.numel
  slices_S2x1024x8_S2x1024x1_0_0_0 : S2x1024x8.Slices ![0, 0, 0] S2x1024x1
  shapeCasts_S2x1024x1_S2x1024 : S2x1024x1.ShapeCasts S2x1024
  reducesTo_S2x1024_S1024_d0 : S2x1024.ReducesTo [0] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024 : S_.BroadcastsInDim S1024 (![] : Fin 0 → Fin S1024.rank)
  bcast_S1024x1_S1024x256_0_1 : S1024x1.BroadcastsInDim S1024x256 (![0, 1] : Fin 2 → Fin S1024x256.rank)
  bcast_S_S1024x256 : S_.BroadcastsInDim S1024x256 (![] : Fin 0 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S2000x1024_S2000x256_S1024x256_0_0_1_1_n_n_wf : DotDims.WF S2000x1024 S2000x256 S1024x256 [0] [0] [1] [1] [] []
  dot_S2000x1024_S2000x8_S1024x8_0_0_1_1_n_n_wf : DotDims.WF S2000x1024 S2000x8 S1024x8 [0] [0] [1] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S1000000x256.size a
  hwx0_0 : ∀ i : grid0.Coords, EltTy.bits .f32 = 32 ∨ (Rect.block (s := S1000000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S1000000x1.size a
  hwx0_1 : ∀ i : grid0.Coords, EltTy.bits .i32 = 32 ∨ (Rect.block (s := S1000000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x8.size a ≤ S2x1024x8.size a
  hwx0_3 : ∀ i : grid0.Coords, EltTy.bits .f32 = 32 ∨ (Rect.block (s := S2x1024x8) S1x1024x8.size (cc0_transform_3 i) (hinb0_3 i)).WholeWords (EltTy.packing .f32)

variable [Facts₀]

def dot_S2000x1024_S2000x256_S1024x256_0_0_1_1_n_n : DotDims S2000x1024 S2000x256 S1024x256 where
  lhsContracting := [0]
  rhsContracting := [0]
  lhsNonContracting := [1]
  rhsNonContracting := [1]
  lhsBatch := []
  rhsBatch := []
  wf := dot_S2000x1024_S2000x256_S1024x256_0_0_1_1_n_n_wf
def dot_S2000x1024_S2000x8_S1024x8_0_0_1_1_n_n : DotDims S2000x1024 S2000x8 S1024x8 where
  lhsContracting := [0]
  rhsContracting := [0]
  lhsNonContracting := [1]
  rhsNonContracting := [1]
  lhsBatch := []
  rhsBatch := []
  wf := dot_S2000x1024_S2000x8_S1024x8_0_0_1_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1000000x256 : Shape := ⟨2, ![1000000, 256]⟩
abbrev S1000x64 : Shape := ⟨2, ![1000, 64]⟩
abbrev S1000 : Shape := ⟨1, ![1000]⟩
abbrev S1024x64 : Shape := ⟨2, ![1024, 64]⟩
abbrev S1000000 : Shape := ⟨1, ![1000000]⟩
abbrev S256x1 : Shape := ⟨2, ![256, 1]⟩
abbrev S1 : Shape := ⟨1, ![1]⟩
abbrev S_ : Shape := ⟨0, ![]⟩
abbrev S1024x256 : Shape := ⟨2, ![1024, 256]⟩
abbrev S1000000x1 : Shape := ⟨2, ![1000000, 1]⟩
abbrev S1024 : Shape := ⟨1, ![1024]⟩
abbrev S1024x1 : Shape := ⟨2, ![1024, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S1000000x256, .f32⟩
  | .hbm, ⟨1, _⟩ => ⟨S1000x64, .f32⟩
  | .hbm, ⟨2, _⟩ => ⟨S1000, .i32⟩
  | .hbm, ⟨3, _⟩ => ⟨S1000, .i32⟩
  | .hbm, ⟨4, _⟩ => ⟨S1024x64, .f32⟩
  | .hbm, ⟨5, _⟩ => ⟨S1000000, .i32⟩
  | .hbm, ⟨6, _⟩ => ⟨S1000, .i32⟩
  | .hbm, ⟨7, _⟩ => ⟨S256x1, .f32⟩
  | .hbm, ⟨8, _⟩ => ⟨S1, .f32⟩
  | .hbm, ⟨9, _⟩ => ⟨S_, .f32⟩
  | .hbm, ⟨10, _⟩ => ⟨S1024x256, .f32⟩
  | .hbm, ⟨11, _⟩ => ⟨S1000000x1, .i32⟩
  | .hbm, ⟨12, _⟩ => ⟨S1024x256, .f32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S1024, .f32⟩
  | .hbm, ⟨17, _⟩ => ⟨S1000000x1, .i32⟩
  | .hbm, ⟨18, _⟩ => ⟨S1024, .f32⟩
  | .hbm, ⟨19, _⟩ => ⟨S1024x1, .f32⟩
  | .hbm, ⟨20, _⟩ => ⟨S_, .f32⟩
  | .hbm, ⟨21, _⟩ => ⟨S1024x1, .f32⟩
  | .hbm, ⟨22, _⟩ => ⟨S1024x1, .i1⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024x1, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S_, .f32⟩
  | .hbm, ⟨31, _⟩ => ⟨S1024x256, .i1⟩
  | .hbm, ⟨32, _⟩ => ⟨S1024x256, .f32⟩
  | .hbm, ⟨33, _⟩ => ⟨S1024x256, .f32⟩
  | .hbm, ⟨34, _⟩ => ⟨S1024x1, .f32⟩
  | .hbm, ⟨35, _⟩ => ⟨S1x1, .f32⟩
  | .hbm, ⟨36, _⟩ => ⟨S1024x1, .f32⟩
  | .hbm, ⟨37, _⟩ => ⟨S1024x1, .f32⟩
  | .hbm, ⟨38, _⟩ => ⟨S1024x1, .f32⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S_, .f32⟩
  | .hbm, ⟨44, _⟩ => ⟨S1024x1, .f32⟩
  | .hbm, ⟨45, _⟩ => ⟨S1024x1, .f32⟩
  | _, _ => ⟨S1000000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S1024x256_S1000000x1_S1000000x256_1_0_0_1_wf : ScatterDims.WF S1024x256 S1000000x1 S1000000x256 [1] [0] [0] 1
  scatter_S1024_S1000000x1_S1000000_n_0_0_1_wf : ScatterDims.WF S1024 S1000000x1 S1000000 [] [0] [0] 1
  dot_S1024x256_S256x1_S1024x1_1_0_0_1_n_n_wf : DotDims.WF S1024x256 S256x1 S1024x1 [1] [0] [0] [1] [] []

variable [Facts₀]

def scatter_S1024x256_S1000000x1_S1000000x256_1_0_0_1 : ScatterDims S1024x256 S1000000x1 S1000000x256 where
  updateWindowDims := [1]
  insertedWindowDims := [0]
  scatterDimsToOperandDims := [0]
  indexVectorDim := 1
  wf := scatter_S1024x256_S1000000x1_S1000000x256_1_0_0_1_wf
def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

class Facts : Prop extends Facts₀ where

variable [Facts]
-- ==== Proof.KPieces.lean ====
/-
  What one grid point leaves in the three carried buffers and, at a run's last point, in the two output blocks.

  A point reads its block of rows and of segment words, builds the mask against the column table, and adds the
  block's masked sums and counts to the running totals.  At a run's first point it first stores zeros into the
  totals and the column table into its buffer, so the totals it adds to are the zeros and the table it compares
  against is the one it has just stored; at every other point it adds to what the point before left and compares
  against the table the point before left.  At a run's last point the totals, as updated, are copied to the output
  blocks under a leading unit axis.  Each statement below names the value a buffer ends with as the body's own
  arithmetic applied to the point's inputs.
-/
import proofs.«411404_j23450521436278_3_alg».proof.Proof.Gen.KernelIdeal.Frame
import Idealize.ShloMosaic.Lib.Pipeline.Value

set_option maxRecDepth 16384

noncomputable section

namespace Cert.KernelIdeal.SegPieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-- First point of a run: the sums start from the zeros just stored, against the table just stored. -/
theorem sumA (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S1x1024x256 .f32) (harg4 : arg4.IsWhole) (arg5 : Memref sig .tc .vmem S1x1024x8 .f32) (harg5 : arg5.IsWhole) (arg6 : Memref sig .tc .vmem S1024x256 .f32) (harg6 : arg6.IsWhole) (arg7 : Memref sig .tc .vmem S1024x8 .f32) (harg7 : arg7.IsWhole) (arg8 : Memref sig .tc .vmem S2000x1024 .i32) (harg8 : arg8.IsWhole) (hc0 : cond0_0 i) (hc1 : ¬cond0_1 i) (x0 : Vec F S2000x256 .f32) (x1 : Vec F S2000x1 .i32) :
    sout0_A_0 c i arg2 harg2 arg3 harg3 arg4 harg4 arg5 harg5 arg6 harg6 arg7 harg7 arg8 harg8 hc0 hc1 x0 x1 = k0_pay5 x1 k0_pay3 x0 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x256) hz2]
  simp only [View.readAt_eq_ld, harg2.read_unread, harg3.read_unread, harg4.read_unread, harg5.read_unread, harg6.read_unread, harg7.read_unread, harg8.read_unread,
    View.ld_unit_zero (S := S2000x256) hz2, View.ld_unit_zero (S := S2000x1) hz2, View.ld_unit_zero (S := S1024x256) hz2, View.ld_unit_zero (S := S1024x8) hz2, View.ld_unit_zero (S := S2000x1024) hz2,
    View.readCov_unit_zero (S := S1024x256) _ hz2, View.readCov_unit_zero (S := S1024x8) _ hz2, View.readCov_unit_zero (S := S2000x1024) _ hz2]

/-- First point of a run: the counts start from the zeros just stored. -/
theorem cntA (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S1x1024x256 .f32) (harg4 : arg4.IsWhole) (arg5 : Memref sig .tc .vmem S1x1024x8 .f32) (harg5 : arg5.IsWhole) (arg6 : Memref sig .tc .vmem S1024x256 .f32) (harg6 : arg6.IsWhole) (arg7 : Memref sig .tc .vmem S1024x8 .f32) (harg7 : arg7.IsWhole) (arg8 : Memref sig .tc .vmem S2000x1024 .i32) (harg8 : arg8.IsWhole) (hc0 : cond0_0 i) (hc1 : ¬cond0_1 i) (x0 : Vec F S2000x256 .f32) (x1 : Vec F S2000x1 .i32) :
    sout0_A_1 c i arg2 harg2 arg3 harg3 arg4 harg4 arg5 harg5 arg6 harg6 arg7 harg7 arg8 harg8 hc0 hc1 x0 x1 = k0_pay6 x1 k0_pay3 (k0_pay2 (F := F)) := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x8) hz2]
  simp only [View.readAt_eq_ld, harg2.read_unread, harg3.read_unread, harg4.read_unread, harg5.read_unread, harg6.read_unread, harg7.read_unread, harg8.read_unread,
    View.ld_unit_zero (S := S2000x256) hz2, View.ld_unit_zero (S := S2000x1) hz2, View.ld_unit_zero (S := S1024x256) hz2, View.ld_unit_zero (S := S1024x8) hz2, View.ld_unit_zero (S := S2000x1024) hz2,
    View.readCov_unit_zero (S := S1024x256) _ hz2, View.readCov_unit_zero (S := S1024x8) _ hz2, View.readCov_unit_zero (S := S2000x1024) _ hz2]

/-- First point of a run: the column table is stored. -/
theorem tabA (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S1x1024x256 .f32) (harg4 : arg4.IsWhole) (arg5 : Memref sig .tc .vmem S1x1024x8 .f32) (harg5 : arg5.IsWhole) (arg6 : Memref sig .tc .vmem S1024x256 .f32) (harg6 : arg6.IsWhole) (arg7 : Memref sig .tc .vmem S1024x8 .f32) (harg7 : arg7.IsWhole) (arg8 : Memref sig .tc .vmem S2000x1024 .i32) (harg8 : arg8.IsWhole) (hc0 : cond0_0 i) (hc1 : ¬cond0_1 i) (x0 : Vec F S2000x256 .f32) (x1 : Vec F S2000x1 .i32) :
    sout0_A_2 c i arg2 harg2 arg3 harg3 arg4 harg4 arg5 harg5 arg6 harg6 arg7 harg7 arg8 harg8 hc0 hc1 x0 x1 = k0_pay3 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_unit_zero hz2]

/-- A middle point: the sums the point before left, plus this block's. -/
theorem sumB (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S1x1024x256 .f32) (harg4 : arg4.IsWhole) (arg5 : Memref sig .tc .vmem S1x1024x8 .f32) (harg5 : arg5.IsWhole) (arg6 : Memref sig .tc .vmem S1024x256 .f32) (harg6 : arg6.IsWhole) (arg7 : Memref sig .tc .vmem S1024x8 .f32) (harg7 : arg7.IsWhole) (arg8 : Memref sig .tc .vmem S2000x1024 .i32) (harg8 : arg8.IsWhole) (hc0 : ¬cond0_0 i) (hc1 : ¬cond0_1 i) (x0 : Vec F S2000x256 .f32) (x1 : Vec F S2000x1 .i32) (xs0 : Vec F S1024x256 .f32) (xs1 : Vec F S1024x8 .f32) (xs2 : Vec F S2000x1024 .i32) :
    sout0_B_0 c i arg2 harg2 arg3 harg3 arg4 harg4 arg5 harg5 arg6 harg6 arg7 harg7 arg8 harg8 hc0 hc1 x0 x1 xs0 xs1 xs2 = k0_pay5 x1 xs2 x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread,
    View.ld_unit_zero (S := S2000x256) hz2, View.ld_unit_zero (S := S2000x1) hz2, View.ld_unit_zero (S := S1024x256) hz2, View.ld_unit_zero (S := S1024x8) hz2, View.ld_unit_zero (S := S2000x1024) hz2,
    View.readCov_unit_zero (S := S1024x256) _ hz2, View.readCov_unit_zero (S := S1024x8) _ hz2, View.readCov_unit_zero (S := S2000x1024) _ hz2]

/-- A middle point: the counts the point before left, plus this block's. -/
theorem cntB (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S1x1024x256 .f32) (harg4 : arg4.IsWhole) (arg5 : Memref sig .tc .vmem S1x1024x8 .f32) (harg5 : arg5.IsWhole) (arg6 : Memref sig .tc .vmem S1024x256 .f32) (harg6 : arg6.IsWhole) (arg7 : Memref sig .tc .vmem S1024x8 .f32) (harg7 : arg7.IsWhole) (arg8 : Memref sig .tc .vmem S2000x1024 .i32) (harg8 : arg8.IsWhole) (hc0 : ¬cond0_0 i) (hc1 : ¬cond0_1 i) (x0 : Vec F S2000x256 .f32) (x1 : Vec F S2000x1 .i32) (xs0 : Vec F S1024x256 .f32) (xs1 : Vec F S1024x8 .f32) (xs2 : Vec F S2000x1024 .i32) :
    sout0_B_1 c i arg2 harg2 arg3 harg3 arg4 harg4 arg5 harg5 arg6 harg6 arg7 harg7 arg8 harg8 hc0 hc1 x0 x1 xs0 xs1 xs2 = k0_pay6 x1 xs2 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread,
    View.ld_unit_zero (S := S2000x256) hz2, View.ld_unit_zero (S := S2000x1) hz2, View.ld_unit_zero (S := S1024x256) hz2, View.ld_unit_zero (S := S1024x8) hz2, View.ld_unit_zero (S := S2000x1024) hz2,
    View.readCov_unit_zero (S := S1024x256) _ hz2, View.readCov_unit_zero (S := S1024x8) _ hz2, View.readCov_unit_zero (S := S2000x1024) _ hz2]

/-- Last point of a run: the sums, as at a middle point. -/
theorem sumC (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S1x1024x256 .f32) (harg4 : arg4.IsWhole) (arg5 : Memref sig .tc .vmem S1x1024x8 .f32) (harg5 : arg5.IsWhole) (arg6 : Memref sig .tc .vmem S1024x256 .f32) (harg6 : arg6.IsWhole) (arg7 : Memref sig .tc .vmem S1024x8 .f32) (harg7 : arg7.IsWhole) (arg8 : Memref sig .tc .vmem S2000x1024 .i32) (harg8 : arg8.IsWhole) (hc0 : ¬cond0_0 i) (hc1 : cond0_1 i) (x0 : Vec F S2000x256 .f32) (x1 : Vec F S2000x1 .i32) (xs0 : Vec F S1024x256 .f32) (xs1 : Vec F S1024x8 .f32) (xs2 : Vec F S2000x1024 .i32) :
    sout0_C_0 c i arg2 harg2 arg3 harg3 arg4 harg4 arg5 harg5 arg6 harg6 arg7 harg7 arg8 harg8 hc0 hc1 x0 x1 xs0 xs1 xs2 = k0_pay5 x1 xs2 x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread,
    View.ld_unit_zero (S := S2000x256) hz2, View.ld_unit_zero (S := S2000x1) hz2, View.ld_unit_zero (S := S1024x256) hz2, View.ld_unit_zero (S := S1024x8) hz2, View.ld_unit_zero (S := S2000x1024) hz2,
    View.readCov_unit_zero (S := S1024x256) _ hz2, View.readCov_unit_zero (S := S1024x8) _ hz2, View.readCov_unit_zero (S := S2000x1024) _ hz2]

/-- Last point of a run: the counts, as at a middle point. -/
theorem cntC (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S1x1024x256 .f32) (harg4 : arg4.IsWhole) (arg5 : Memref sig .tc .vmem S1x1024x8 .f32) (harg5 : arg5.IsWhole) (arg6 : Memref sig .tc .vmem S1024x256 .f32) (harg6 : arg6.IsWhole) (arg7 : Memref sig .tc .vmem S1024x8 .f32) (harg7 : arg7.IsWhole) (arg8 : Memref sig .tc .vmem S2000x1024 .i32) (harg8 : arg8.IsWhole) (hc0 : ¬cond0_0 i) (hc1 : cond0_1 i) (x0 : Vec F S2000x256 .f32) (x1 : Vec F S2000x1 .i32) (xs0 : Vec F S1024x256 .f32) (xs1 : Vec F S1024x8 .f32) (xs2 : Vec F S2000x1024 .i32) :
    sout0_C_1 c i arg2 harg2 arg3 harg3 arg4 harg4 arg5 harg5 arg6 harg6 arg7 harg7 arg8 harg8 hc0 hc1 x0 x1 xs0 xs1 xs2 = k0_pay6 x1 xs2 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread,
    View.ld_unit_zero (S := S2000x256) hz2, View.ld_unit_zero (S := S2000x1) hz2, View.ld_unit_zero (S := S1024x256) hz2, View.ld_unit_zero (S := S1024x8) hz2, View.ld_unit_zero (S := S2000x1024) hz2,
    View.readCov_unit_zero (S := S1024x256) _ hz2, View.readCov_unit_zero (S := S1024x8) _ hz2, View.readCov_unit_zero (S := S2000x1024) _ hz2]

/-- Last point of a run: the output block of sums is the updated sums under a unit axis. -/
theorem outSumC (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S1x1024x256 .f32) (harg4 : arg4.IsWhole) (arg5 : Memref sig .tc .vmem S1x1024x8 .f32) (harg5 : arg5.IsWhole) (arg6 : Memref sig .tc .vmem S1024x256 .f32) (harg6 : arg6.IsWhole) (arg7 : Memref sig .tc .vmem S1024x8 .f32) (harg7 : arg7.IsWhole) (arg8 : Memref sig .tc .vmem S2000x1024 .i32) (harg8 : arg8.IsWhole) (hc0 : ¬cond0_0 i) (hc1 : cond0_1 i) (x0 : Vec F S2000x256 .f32) (x1 : Vec F S2000x1 .i32) (xs0 : Vec F S1024x256 .f32) (xs1 : Vec F S1024x8 .f32) (xs2 : Vec F S2000x1024 .i32) :
    out0_C_2 c i arg2 harg2 arg3 harg3 arg4 harg4 arg5 harg5 arg6 harg6 arg7 harg7 arg8 harg8 hc0 hc1 x0 x1 xs0 xs1 xs2 = k0_pay7 (k0_pay5 x1 xs2 x0 xs0) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S2000x256) hz2, View.ld_unit_zero (S := S2000x1) hz2, View.ld_unit_zero (S := S1024x256) hz2, View.ld_unit_zero (S := S1024x8) hz2, View.ld_unit_zero (S := S2000x1024) hz2,
    View.readCov_unit_zero (S := S1024x256) _ hz2, View.readCov_unit_zero (S := S1024x8) _ hz2, View.readCov_unit_zero (S := S2000x1024) _ hz2]

/-- Last point of a run: the output block of counts is the updated counts under a unit axis. -/
theorem outCntC (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S1x1024x256 .f32) (harg4 : arg4.IsWhole) (arg5 : Memref sig .tc .vmem S1x1024x8 .f32) (harg5 : arg5.IsWhole) (arg6 : Memref sig .tc .vmem S1024x256 .f32) (harg6 : arg6.IsWhole) (arg7 : Memref sig .tc .vmem S1024x8 .f32) (harg7 : arg7.IsWhole) (arg8 : Memref sig .tc .vmem S2000x1024 .i32) (harg8 : arg8.IsWhole) (hc0 : ¬cond0_0 i) (hc1 : cond0_1 i) (x0 : Vec F S2000x256 .f32) (x1 : Vec F S2000x1 .i32) (xs0 : Vec F S1024x256 .f32) (xs1 : Vec F S1024x8 .f32) (xs2 : Vec F S2000x1024 .i32) :
    out0_C_3 c i arg2 harg2 arg3 harg3 arg4 harg4 arg5 harg5 arg6 harg6 arg7 harg7 arg8 harg8 hc0 hc1 x0 x1 xs0 xs1 xs2 = k0_pay8 (k0_pay6 x1 xs2 xs1) := by
  unfold out0_C_3
  rw [View.read_writes_eq_canon _ _ _ (cover0_C_3 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S2000x256) hz2, View.ld_unit_zero (S := S2000x1) hz2, View.ld_unit_zero (S := S1024x256) hz2, View.ld_unit_zero (S := S1024x8) hz2, View.ld_unit_zero (S := S2000x1024) hz2,
    View.readCov_unit_zero (S := S1024x256) _ hz2, View.readCov_unit_zero (S := S1024x8) _ hz2, View.readCov_unit_zero (S := S2000x1024) _ hz2]

end Cert.KernelIdeal.SegPieces

end
-- ==== Proof.SegMath.lean ====
/-
  Segment sums as plain sums over the rows.

  A row `R` of the node array carries a segment word `I R`; segment `p` collects the rows whose word is the
  32-bit pattern of `p`.  The rows are cut into 500 blocks of 2000 and the blocks into two runs of 250: a run's
  partial result is the sum of its blocks' contributions, a block's contribution the sum over its 2000 rows of
  indicator times entry.  Summing the two runs is summing over all rows, because `(q, s, k) ↦ (250 q + s) · 2000 + k`
  is a bijection onto the rows and addition on the extended reals is commutative and associative.  On the other
  side an accumulating scatter adds to segment `p` exactly the rows whose word read signed is `p`: the same rows.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.SegMean

open Idealize.ShloMosaic Idealize.ShloMosaic.ValueIdx

/-- The indicator of two words being equal, as an extended real. -/
def ind (a b : BitVec 32) : EReal := if a = b then 1 else 0

theorem ind_mul (a b : BitVec 32) (x : EReal) : ind a b * x = if a = b then x else 0 := by
  unfold ind; split <;> simp

/-- The 32-bit word of a segment number. -/
def colW (p : Fin 1024) : BitVec 32 := BitVec.ofNat 32 p.val

/-- Row `R` of the node array at column `d`, zero past the last row. -/
def rowX (X : (⟨2, ![1000000, 256]⟩ : Shape).Idx → EReal) (R : ℕ) (d : Fin 256) : EReal :=
  if h : R < 1000000 then X (ix2 ⟨R, h⟩ d) else 0

/-- Row `R`'s segment word, the zero word past the last row. -/
def rowI (I : (⟨1, ![1000000]⟩ : Shape).Idx → BitVec 32) (R : ℕ) : BitVec 32 :=
  if h : R < 1000000 then I (ix1 ⟨R, h⟩) else 0#32

/-- Block `n`'s contribution to segment `p`, column `d`: its 2000 rows, each entry under the indicator. -/
def blockSum (X : (⟨2, ![1000000, 256]⟩ : Shape).Idx → EReal) (I : (⟨1, ![1000000]⟩ : Shape).Idx → BitVec 32)
    (n : ℕ) (p : Fin 1024) (d : Fin 256) : EReal :=
  ∑ k : Fin 2000, ind (colW p) (rowI I (n * 2000 + k.val)) * rowX X (n * 2000 + k.val) d

/-- Block `n`'s contribution to segment `p`'s row count. -/
def blockCnt (I : (⟨1, ![1000000]⟩ : Shape).Idx → BitVec 32) (n : ℕ) (p : Fin 1024) : EReal :=
  ∑ k : Fin 2000, ind (colW p) (rowI I (n * 2000 + k.val)) * 1

/-- A sum over `Fin N` with `N = A · B` is the double sum over quotient and remainder. -/
theorem sum_fin_mul {M : Type*} [AddCommMonoid M] (A B N : ℕ) (h : A * B = N) (f : ℕ → M) :
    ∑ R : Fin N, f R.val = ∑ a : Fin A, ∑ b : Fin B, f (a.val * B + b.val) := by
  subst h
  rw [← finProdFinEquiv.sum_comp, Fintype.sum_prod_type]
  refine Finset.sum_congr rfl fun a _ => Finset.sum_congr rfl fun b _ => ?_
  congr 1
  show b.val + B * a.val = a.val * B + b.val
  rw [Nat.mul_comm, Nat.add_comm]

/-- All rows, as two runs of 250 blocks of 2000 rows. -/
theorem sum_rows_split {M : Type*} [AddCommMonoid M] (f : ℕ → M) :
    ∑ R : Fin 1000000, f R.val
      = ∑ q : Fin 2, ∑ s ∈ Finset.range 250, ∑ k : Fin 2000, f ((250 * q.val + s) * 2000 + k.val) := by
  rw [sum_fin_mul 500 2000 1000000 rfl f, sum_fin_mul 2 250 500 rfl (fun n => ∑ k : Fin 2000, f (n * 2000 + k.val))]
  refine Finset.sum_congr rfl fun q _ => ?_
  rw [Finset.sum_range]
  refine Finset.sum_congr rfl fun s _ => ?_
  rw [Nat.mul_comm q.val 250]

/-- The two runs' sums of block contributions are the sum over all rows. -/
theorem runs_blockSum (X : (⟨2, ![1000000, 256]⟩ : Shape).Idx → EReal) (I : (⟨1, ![1000000]⟩ : Shape).Idx → BitVec 32)
    (p : Fin 1024) (d : Fin 256) :
    ∑ q : Fin 2, ∑ s ∈ Finset.range 250, blockSum X I (250 * q.val + s) p d
      = ∑ R : Fin 1000000, ind (colW p) (I (ix1 R)) * X (ix2 R d) := by
  have h := sum_rows_split (fun R => ind (colW p) (rowI I R) * rowX X R d)
  unfold blockSum
  rw [← h]
  refine Finset.sum_congr rfl fun R _ => ?_
  unfold rowI rowX
  rw [dif_pos R.isLt, dif_pos R.isLt]

theorem runs_blockCnt (I : (⟨1, ![1000000]⟩ : Shape).Idx → BitVec 32) (p : Fin 1024) :
    ∑ q : Fin 2, ∑ s ∈ Finset.range 250, blockCnt I (250 * q.val + s) p
      = ∑ R : Fin 1000000, ind (colW p) (I (ix1 R)) * 1 := by
  have h := sum_rows_split (fun R => ind (colW p) (rowI I R) * 1)
  unfold blockCnt
  rw [← h]
  refine Finset.sum_congr rfl fun R _ => ?_
  unfold rowI
  rw [dif_pos R.isLt]

/-- A word read signed is the segment number `p` exactly when it is `p`'s word. -/
theorem toInt_eq_iff (w : BitVec 32) (p : Fin 1024) : w.toInt = (p.val : ℤ) ↔ colW p = w := by
  unfold colW
  have hp := p.isLt
  have hw := w.isLt
  rw [BitVec.toInt_eq_toNat_cond]
  constructor
  · intro h
    apply BitVec.eq_of_toNat_eq
    rw [BitVec.toNat_ofNat]
    split at h <;> omega
  · intro h
    subst h
    rw [BitVec.toNat_ofNat]
    split <;> omega

end Cert.SegMean

end
-- ==== Proof.KPayloads.lean ====
/-
  The kernel body's arithmetic, read at one index over the extended reals.

  The mask of a block is the indicator that a row's segment word equals the column's word; converting it to a float
  gives 1 or 0 exactly.  A matrix product contracting the ROW axis of both operands, into a zero accumulator, is at
  (p, d) the sum over the block's 2000 rows of mask(row, p) times entry(row, d); the running total adds that to what
  it held.  Changes of float format and casts between equal shapes are the identity.
-/
import proofs.«411404_j23450521436278_3_alg».proof.Proof.Gen.KernelIdeal.Skeleton
import proofs.«411404_j23450521436278_3_alg».proof.Proof.SegMath
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SegPay

open Cert.KernelIdeal Cert.KernelIdeal.Gen Cert.SegMean
open Idealize.ShloMosaic Idealize.ShloMosaic.TcCoe Idealize.ShloMosaic.ValueIdx

/-- The reset value of the running sums: zero everywhere. -/
theorem pay1_apply (i : S1024x256.Idx) : k0_pay1 (F := Ideal) i = 0 := by
  unfold k0_pay1
  rw [shapeCast_self]
  exact Ideal.ofBits_zero_f32

/-- The reset value of the running counts: zero everywhere. -/
theorem pay2_apply (i : S1024x8.Idx) : k0_pay2 (F := Ideal) i = 0 := by
  unfold k0_pay2
  rw [shapeCast_self]
  exact Ideal.ofBits_zero_f32

/-- The column table: entry (r, s) is the word of `s`. -/
theorem pay3_apply (r : Fin 2000) (s : Fin 1024) : k0_pay3 (ix2 r s) = BitVec.ofNat 32 s.val := by
  unfold k0_pay3
  rw [shapeCast_self]
  exact iota_single_apply .tc S2000x1024 32 1 _ (ix2 r s)

/-- The comparison bit widened to a word and read signed is 1 on equal words and 0 otherwise. -/
theorem cmpi_eq_toInt (a b : BitVec 32) :
    ((IntOp.cmpi .eq a b).setWidth 32).toInt = if a = b then 1 else 0 := by
  unfold IntOp.cmpi
  by_cases h : a = b
  · subst h; simp
  · have hf : (a == b) = false := by simpa using h
    rw [hf, if_neg h]
    rfl

/-- The mask as a float: 1 where the column table's word at (r, s) is row r's segment word, else 0. -/
theorem pay4_apply (v3 : Vec Ideal S2000x1 .i32) (v5 : Vec Ideal S2000x1024 .i32) (r : Fin 2000) (s : Fin 1024) :
    k0_pay4 (F := Ideal) v3 v5 (ix2 r s) = ind (v5 (ix2 r s)) (v3 (ix2 r 0)) := by
  unfold k0_pay4
  rw [shapeCast_self]
  have hb : broadcastTo S2000x1024 v3 Facts₀.broadcasts_S2000x1_S2000x1024 (ix2 r s) = v3 (ix2 r 0) :=
    broadcastTo_apply v3 _ (ix2 r s) (ix2 r 0) (fun a => by match a with | ⟨0, _⟩ => rfl | ⟨1, _⟩ => rfl)
  show ((((IntOp.cmpi .eq (v5 (ix2 r s)) (broadcastTo S2000x1024 v3 _ (ix2 r s))).setWidth 32).toInt : ℝ) : EReal) = _
  rw [hb, cmpi_eq_toInt]
  unfold ind
  split <;> simp

/-- On the contracted (row) axis the left operand's index is the contraction position. -/
theorem lhs5_0 (j : S1024x256.Idx) (q : dot_S2000x1024_S2000x256_S1024x256_0_0_1_1_n_n.contr.Idx) :
    (dot_S2000x1024_S2000x256_S1024x256_0_0_1_1_n_n.lhsIdx j q 0).val = (q ⟨0, Nat.one_pos⟩).val :=
  dot_S2000x1024_S2000x256_S1024x256_0_0_1_1_n_n.lhsIdx_val_of_single rfl j q

/-- On its kept (column) axis the left operand's index is the output's first coordinate. -/
theorem lhs5_1 (j : S1024x256.Idx) (q : dot_S2000x1024_S2000x256_S1024x256_0_0_1_1_n_n.contr.Idx) :
    (dot_S2000x1024_S2000x256_S1024x256_0_0_1_1_n_n.lhsIdx j q 1).val = (j 0).val := by
  unfold DotDims.lhsIdx
  rw [dif_neg (show ¬(1 : Fin S2000x1024.rank) ∈ dot_S2000x1024_S2000x256_S1024x256_0_0_1_1_n_n.lhsBatch by decide),
    dif_pos (show (1 : Fin S2000x1024.rank) ∈ dot_S2000x1024_S2000x256_S1024x256_0_0_1_1_n_n.lhsNonContracting by decide)]
  rfl

/-- On the contracted (row) axis the right operand's index is the contraction position. -/
theorem rhs5_0 (j : S1024x256.Idx) (q : dot_S2000x1024_S2000x256_S1024x256_0_0_1_1_n_n.contr.Idx) :
    (dot_S2000x1024_S2000x256_S1024x256_0_0_1_1_n_n.rhsIdx j q 0).val = (q ⟨0, Nat.one_pos⟩).val :=
  dot_S2000x1024_S2000x256_S1024x256_0_0_1_1_n_n.rhsIdx_val_of_single rfl j q

/-- On its kept (column) axis the right operand's index is the output's second coordinate. -/
theorem rhs5_1 (j : S1024x256.Idx) (q : dot_S2000x1024_S2000x256_S1024x256_0_0_1_1_n_n.contr.Idx) :
    (dot_S2000x1024_S2000x256_S1024x256_0_0_1_1_n_n.rhsIdx j q 1).val = (j 1).val := by
  unfold DotDims.rhsIdx
  rw [dif_neg (show ¬(1 : Fin S2000x256.rank) ∈ dot_S2000x1024_S2000x256_S1024x256_0_0_1_1_n_n.rhsBatch by decide),
    dif_pos (show (1 : Fin S2000x256.rank) ∈ dot_S2000x1024_S2000x256_S1024x256_0_0_1_1_n_n.rhsNonContracting by decide)]
  rfl

/-- On the contracted (row) axis the left operand's index is the contraction position. -/
theorem lhs6_0 (j : S1024x8.Idx) (q : dot_S2000x1024_S2000x8_S1024x8_0_0_1_1_n_n.contr.Idx) :
    (dot_S2000x1024_S2000x8_S1024x8_0_0_1_1_n_n.lhsIdx j q 0).val = (q ⟨0, Nat.one_pos⟩).val :=
  dot_S2000x1024_S2000x8_S1024x8_0_0_1_1_n_n.lhsIdx_val_of_single rfl j q

/-- On its kept (column) axis the left operand's index is the output's first coordinate. -/
theorem lhs6_1 (j : S1024x8.Idx) (q : dot_S2000x1024_S2000x8_S1024x8_0_0_1_1_n_n.contr.Idx) :
    (dot_S2000x1024_S2000x8_S1024x8_0_0_1_1_n_n.lhsIdx j q 1).val = (j 0).val := by
  unfold DotDims.lhsIdx
  rw [dif_neg (show ¬(1 : Fin S2000x1024.rank) ∈ dot_S2000x1024_S2000x8_S1024x8_0_0_1_1_n_n.lhsBatch by decide),
    dif_pos (show (1 : Fin S2000x1024.rank) ∈ dot_S2000x1024_S2000x8_S1024x8_0_0_1_1_n_n.lhsNonContracting by decide)]
  rfl

/-- On the contracted (row) axis the right operand's index is the contraction position. -/
theorem rhs6_0 (j : S1024x8.Idx) (q : dot_S2000x1024_S2000x8_S1024x8_0_0_1_1_n_n.contr.Idx) :
    (dot_S2000x1024_S2000x8_S1024x8_0_0_1_1_n_n.rhsIdx j q 0).val = (q ⟨0, Nat.one_pos⟩).val :=
  dot_S2000x1024_S2000x8_S1024x8_0_0_1_1_n_n.rhsIdx_val_of_single rfl j q

/-- On its kept (column) axis the right operand's index is the output's second coordinate. -/
theorem rhs6_1 (j : S1024x8.Idx) (q : dot_S2000x1024_S2000x8_S1024x8_0_0_1_1_n_n.contr.Idx) :
    (dot_S2000x1024_S2000x8_S1024x8_0_0_1_1_n_n.rhsIdx j q 1).val = (j 1).val := by
  unfold DotDims.rhsIdx
  rw [dif_neg (show ¬(1 : Fin S2000x8.rank) ∈ dot_S2000x1024_S2000x8_S1024x8_0_0_1_1_n_n.rhsBatch by decide),
    dif_pos (show (1 : Fin S2000x8.rank) ∈ dot_S2000x1024_S2000x8_S1024x8_0_0_1_1_n_n.rhsNonContracting by decide)]
  rfl

/-- The bf16 word 0x3F80 is one. -/
theorem one_bf16 : Ideal.ofBits .bf16 0x3F80#16 = 1 := by
  simp [Ideal.ofBits, Ideal.ieee, -EReal.coe_mul]
  norm_num

/-- The running sums after a block: what they held plus, over the block's rows, mask times entry. -/
theorem pay5_apply (v3 : Vec Ideal S2000x1 .i32) (v5 : Vec Ideal S2000x1024 .i32) (v11 : Vec Ideal S2000x256 .f32)
    (v16 : Vec Ideal S1024x256 .f32) (p : Fin 1024) (d : Fin 256) :
    k0_pay5 (F := Ideal) v3 v5 v11 v16 (ix2 p d)
      = v16 (ix2 p d) + ∑ k : Fin 2000, k0_pay4 (F := Ideal) v3 v5 (ix2 k p) * v11 (ix2 k d) := by
  unfold k0_pay5
  rw [shapeCast_self]
  refine congrArg (v16 (ix2 p d) + ·) ?_
  refine (Ideal.matmul_constant_zero_apply dot_S2000x1024_S2000x256_S1024x256_0_0_1_1_n_n none (k0_pay4 v3 v5)
    (truncf .bf16 v11 Facts₀.bitsLt_bf16_f32) (ix2 p d)).trans ?_
  rw [← Equiv.sum_comp (ValueIdx.contrEquiv1 dot_S2000x1024_S2000x256_S1024x256_0_0_1_1_n_n 2000 rfl rfl).symm]
  refine Finset.sum_congr rfl fun k _ => ?_
  have hk := ValueIdx.contrEquiv1_symm_val dot_S2000x1024_S2000x256_S1024x256_0_0_1_1_n_n 2000 rfl rfl k
  have hl : dot_S2000x1024_S2000x256_S1024x256_0_0_1_1_n_n.lhsIdx (ix2 p d) ((ValueIdx.contrEquiv1 dot_S2000x1024_S2000x256_S1024x256_0_0_1_1_n_n 2000 rfl rfl).symm k) = ix2 k p :=
    funext fun a => Fin.ext (by
      match a with
      | ⟨0, _⟩ => exact (lhs5_0 _ _).trans hk
      | ⟨1, _⟩ => exact lhs5_1 _ _)
  have hr : dot_S2000x1024_S2000x256_S1024x256_0_0_1_1_n_n.rhsIdx (ix2 p d) ((ValueIdx.contrEquiv1 dot_S2000x1024_S2000x256_S1024x256_0_0_1_1_n_n 2000 rfl rfl).symm k) = ix2 k d :=
    funext fun a => Fin.ext (by
      match a with
      | ⟨0, _⟩ => exact (rhs5_0 _ _).trans hk
      | ⟨1, _⟩ => exact rhs5_1 _ _)
  rw [hl, hr]
  rfl

/-- The running counts after a block: what they held plus, over the block's rows, the mask (times one). -/
theorem pay6_apply (v3 : Vec Ideal S2000x1 .i32) (v5 : Vec Ideal S2000x1024 .i32) (v21 : Vec Ideal S1024x8 .f32)
    (p : Fin 1024) (e : Fin 8) :
    k0_pay6 (F := Ideal) v3 v5 v21 (ix2 p e)
      = v21 (ix2 p e) + ∑ k : Fin 2000, k0_pay4 (F := Ideal) v3 v5 (ix2 k p) * 1 := by
  unfold k0_pay6
  rw [shapeCast_self]
  refine congrArg (v21 (ix2 p e) + ·) ?_
  refine (Ideal.matmul_constant_zero_apply dot_S2000x1024_S2000x8_S1024x8_0_0_1_1_n_n none (k0_pay4 v3 v5)
    (broadcast S2000x8 (Scalar.ofBits (F := Ideal) .bf16 0x3F80#16)) (ix2 p e)).trans ?_
  rw [← Equiv.sum_comp (ValueIdx.contrEquiv1 dot_S2000x1024_S2000x8_S1024x8_0_0_1_1_n_n 2000 rfl rfl).symm]
  refine Finset.sum_congr rfl fun k _ => ?_
  have hk := ValueIdx.contrEquiv1_symm_val dot_S2000x1024_S2000x8_S1024x8_0_0_1_1_n_n 2000 rfl rfl k
  have hl : dot_S2000x1024_S2000x8_S1024x8_0_0_1_1_n_n.lhsIdx (ix2 p e) ((ValueIdx.contrEquiv1 dot_S2000x1024_S2000x8_S1024x8_0_0_1_1_n_n 2000 rfl rfl).symm k) = ix2 k p :=
    funext fun a => Fin.ext (by
      match a with
      | ⟨0, _⟩ => exact (lhs6_0 _ _).trans hk
      | ⟨1, _⟩ => exact lhs6_1 _ _)
  rw [hl]
  exact congrArg (k0_pay4 (F := Ideal) v3 v5 (ix2 k p) * ·) one_bf16

/-- The sums handed to the output block: the same entries under a leading unit axis. -/
theorem pay7_apply (v : Vec Ideal S1024x256 .f32) (q : Fin 1) (p : Fin 1024) (d : Fin 256) :
    k0_pay7 (F := Ideal) v (ix3 q p d) = v (ix2 p d) := by
  unfold k0_pay7
  refine (shapeCast_addUnit_apply ![1024, 256] v _ (ix3 q p d)).trans ?_
  exact congrArg v (funext fun a => by match a with | ⟨0, _⟩ => rfl | ⟨1, _⟩ => rfl)

/-- The counts handed to the output block: the same entries under a leading unit axis. -/
theorem pay8_apply (v : Vec Ideal S1024x8 .f32) (q : Fin 1) (p : Fin 1024) (e : Fin 8) :
    k0_pay8 (F := Ideal) v (ix3 q p e) = v (ix2 p e) := by
  unfold k0_pay8
  refine (shapeCast_addUnit_apply ![1024, 8] v _ (ix3 q p e)).trans ?_
  exact congrArg v (funext fun a => by match a with | ⟨0, _⟩ => rfl | ⟨1, _⟩ => rfl)

end Cert.KernelIdeal.SegPay

end
-- ==== Proof.KBlocks.lean ====
/-
  The two input blocks of a grid point, read at an index of the whole arrays.

  Point `t` of the 2 × 250 grid, counted row-major, stages block `t` of the node array and of the column of segment
  words: rows `2000 t … 2000 t + 1999`.  The column of segment words is the vector of segment words under a trailing
  unit axis (a reshape), so its row `R` is entry `R` of the vector.
-/
import proofs.«411404_j23450521436278_3_alg».proof.Proof.Gen.KernelIdeal.Frame
import proofs.«411404_j23450521436278_3_alg».proof.Proof.SegMath
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.SegBlocks

open Cert.KernelIdeal Cert.KernelIdeal.Gen Cert.SegMean
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The block index of both inputs at point `t` is `t` on the row axis and `0` on the other. -/
theorem idx_in : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- The node block at point `t`: row `k` of it is row `2000 t + k` of the array. -/
theorem nodesBlk_apply (c : Dev nD) (t : Fin cfg0.N) (k : Fin 2000) (d : Fin 256) (h : t.val * 2000 + k.val < 1000000) :
    (iblk m c 0 t : Vec F S2000x256 .f32) (ix2 k d) = (V m c main_arg0 : Vec F S1000000x256 .f32) (ix2 ⟨t.val * 2000 + k.val, h⟩ d) := by
  have hi := idx_in t
  unfold iblk
  rw [View.read_apply]
  show V m c main_arg0 _ = V m c main_arg0 _
  congr 1
  funext a
  apply Fin.ext
  match a with
  | ⟨0, _⟩ => show win0_0.index t 0 * 2000 + 1 * k.val = t.val * 2000 + k.val; rw [hi.1]; omega
  | ⟨1, _⟩ => show win0_0.index t 1 * 256 + 1 * d.val = d.val; rw [hi.2.1]; omega

/-- The block of segment words at point `t`: row `k` of it is row `2000 t + k` of the column. -/
theorem wordsBlk_apply (c : Dev nD) (t : Fin cfg0.N) (k : Fin 2000) (h : t.val * 2000 + k.val < 1000000) :
    (iblk m c 1 t : Vec F S2000x1 .i32) (ix2 k 0) = (V m c main_v0 : Vec F S1000000x1 .i32) (ix2 ⟨t.val * 2000 + k.val, h⟩ 0) := by
  have hi := idx_in t
  unfold iblk
  rw [View.read_apply]
  show V m c main_v0 _ = V m c main_v0 _
  congr 1
  funext a
  apply Fin.ext
  match a with
  | ⟨0, _⟩ => show win0_1.index t 0 * 2000 + 1 * k.val = t.val * 2000 + k.val; rw [hi.2.2.1]; omega
  | ⟨1, _⟩ => show win0_1.index t 1 * 1 + 1 * 0 = 0; rw [hi.2.2.2]

/-- The column of segment words, as the region finds it, is the vector of segment words reshaped. -/
theorem words_eq (c : Dev nD) :
    (V m c main_v0 : Vec F S1000000x1 .i32) = shapeCast S1000000x1 (m ((c : Thread nD τ).loc main_arg5)) shapeCasts_S1000000_S1000000x1 := by
  show StableHlo.after hostOps0 (fun b => m (c, b)) (Proc.devRef .tc main_v0) = _
  after_results
  rfl

/-- Row `R` of the column is entry `R` of the vector. -/
theorem words_apply (c : Dev nD) (R : Fin 1000000) :
    (V m c main_v0 : Vec F S1000000x1 .i32) (ix2 R 0) = (m ((c : Thread nD τ).loc main_arg5) : Vec F S1000000 .i32) (ix1 R) := by
  rw [words_eq]
  refine shapeCast_apply (s := S1000000) (t := S1000000x1) _ shapeCasts_S1000000_S1000000x1 (ix2 R 0) (ix1 R) ?_
  rw [Shape.rowMajor_val_one, Shape.rowMajor_val_two]
  show R.val = R.val * 1 + 0
  omega

end Cert.KernelIdeal.SegBlocks

end
-- ==== Proof.SegAcc.lean ====
/-
  The running total of a run of 250 consecutive grid points.

  Point `n` lies in the run that starts at `n - n % 250`; after it the carried total is the sum of the
  contributions of the run's points up to `n`.  The total restarts at a run's first point, grows by the point's own
  contribution at every other point, and after the run's last point is the sum over the whole run.
-/
import proofs.«411404_j23450521436278_3_alg».proof.Proof.SegMath

noncomputable section

namespace Cert.SegMean

open Idealize.ShloMosaic Idealize.ShloMosaic.ValueIdx

variable {M : Type*} [AddCommMonoid M]

/-- The sum of `f` over the points of `n`'s run up to `n`. -/
def runSum (f : ℕ → M) (n : ℕ) : M := ∑ s ∈ Finset.range (n % 250 + 1), f (n - n % 250 + s)

theorem runSum_reset (f : ℕ → M) (n : ℕ) (h : n % 250 = 0) : runSum f n = f n := by
  unfold runSum
  rw [h, Nat.zero_add, Finset.sum_range_one, Nat.sub_zero, Nat.add_zero]

theorem runSum_step (f : ℕ → M) (n : ℕ) (h : ¬(n + 1) % 250 = 0) : runSum f (n + 1) = runSum f n + f (n + 1) := by
  have h1 : (n + 1) % 250 = n % 250 + 1 := by omega
  have h2 : n + 1 - (n % 250 + 1) = n - n % 250 := by omega
  have h3 : n - n % 250 + (n % 250 + 1) = n + 1 := by omega
  unfold runSum
  rw [h1, h2, Finset.sum_range_succ _ (n % 250 + 1), h3]

theorem runSum_last (f : ℕ → M) (n : ℕ) (h : n % 250 = 249) :
    runSum f n = ∑ s ∈ Finset.range 250, f (250 * (n / 250) + s) := by
  have h2 : n - 249 = 250 * (n / 250) := by omega
  unfold runSum
  rw [h, h2]

/-- The two output arrays of the kernel's launch: run `q`'s totals, over the whole run. -/
def runsSum (X : (⟨2, ![1000000, 256]⟩ : Shape).Idx → EReal) (I : (⟨1, ![1000000]⟩ : Shape).Idx → BitVec 32) :
    (⟨3, ![2, 1024, 256]⟩ : Shape).Idx → EReal :=
  fun i => ∑ s ∈ Finset.range 250, blockSum X I (250 * (i 0).val + s) (i 1) (i 2)

def runsCnt (I : (⟨1, ![1000000]⟩ : Shape).Idx → BitVec 32) : (⟨3, ![2, 1024, 8]⟩ : Shape).Idx → EReal :=
  fun i => ∑ s ∈ Finset.range 250, blockCnt I (250 * (i 0).val + s) (i 1)

end Cert.SegMean

end
-- ==== Proof.KInvariant.lean ====
/-
  What the three carried buffers hold after every grid point.

  By induction on the point: the column table is the stored table from a run's first point on (no later point of
  the run stores into it, and the next run stores it again); the running sums and counts restart at a run's first
  point with that block's contribution added to zero, and at every other point are what the point before left plus
  the block's contribution.  A block's contribution, read through the two input blocks, is the sum over the block's
  rows of the indicator that the row's segment word is the column's word, times the entry (times one, for the count).
-/
import proofs.«411404_j23450521436278_3_alg».proof.Proof.Gen.KernelIdeal.Frame
import proofs.«411404_j23450521436278_3_alg».proof.Proof.KPieces
import proofs.«411404_j23450521436278_3_alg».proof.Proof.KPayloads
import proofs.«411404_j23450521436278_3_alg».proof.Proof.KBlocks
import proofs.«411404_j23450521436278_3_alg».proof.Proof.SegAcc
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.SegInv

open Cert.KernelIdeal Cert.KernelIdeal.Gen Cert.SegMean
open Idealize.ShloMosaic Idealize.ShloMosaic.TcCoe Idealize.ShloMosaic.ValueIdx Idealize.SL.Sem
open Idealize.ShloMosaic.Pipeline (Dat)

open Cert.KernelIdeal.SegPieces Cert.KernelIdeal.SegPay Cert.KernelIdeal.SegBlocks

variable (m : (ℓ : Loc nD τ sig) → Buf (Elt Ideal) ℓ)

/-- The node array as the launch finds it, and the vector of segment words. -/
abbrev nodes (c : Dev nD) : (⟨2, ![1000000, 256]⟩ : Shape).Idx → EReal := V m c main_arg0
abbrev words (c : Dev nD) : (⟨1, ![1000000]⟩ : Shape).Idx → BitVec 32 := m ((c : Thread nD τ).loc main_arg5)
/-- The two input blocks of point `t`, at their literal types. -/
abbrev nblk (c : Dev nD) (t : Fin cfg0.N) : Vec Ideal S2000x256 .f32 := iblk m c 0 t
abbrev wblk (c : Dev nD) (t : Fin cfg0.N) : Vec Ideal S2000x1 .i32 := iblk m c 1 t

theorem wblk_apply (c : Dev nD) (t : Fin cfg0.N) (k : Fin 2000) :
    wblk m c t (ix2 k 0) = rowI (words m c) (t.val * 2000 + k.val) := by
  have hN : t.val < 500 := lt_of_lt_of_eq t.isLt (show cfg0.N = 500 from N_0)
  have hk : t.val * 2000 + k.val < 1000000 := by have := k.isLt; omega
  unfold rowI
  rw [dif_pos hk]
  exact (wordsBlk_apply m c t k hk).trans (words_apply m c _)

theorem nblk_apply (c : Dev nD) (t : Fin cfg0.N) (k : Fin 2000) (d : Fin 256) :
    nblk m c t (ix2 k d) = rowX (nodes m c) (t.val * 2000 + k.val) d := by
  have hN : t.val < 500 := lt_of_lt_of_eq t.isLt (show cfg0.N = 500 from N_0)
  have hk : t.val * 2000 + k.val < 1000000 := by have := k.isLt; omega
  unfold rowX
  rw [dif_pos hk]
  exact nodesBlk_apply m c t k d hk

/-- The mask of point `t` against the stored column table: row `k`, column `p`. -/
theorem mask_apply (c : Dev nD) (t : Fin cfg0.N) (k : Fin 2000) (p : Fin 1024) :
    k0_pay4 (F := Ideal) (wblk m c t) k0_pay3 (ix2 k p) = ind (colW p) (rowI (words m c) (t.val * 2000 + k.val)) := by
  refine (pay4_apply (wblk m c t) k0_pay3 k p).trans ?_
  rw [pay3_apply, wblk_apply]
  rfl

/-- One point's update of the running sums: what they held plus the block's contribution. -/
theorem step_sum (c : Dev nD) (t : Fin cfg0.N) (acc : Vec Ideal S1024x256 .f32) (p : Fin 1024) (d : Fin 256) :
    k0_pay5 (F := Ideal) (wblk m c t) k0_pay3 (nblk m c t) acc (ix2 p d)
      = acc (ix2 p d) + blockSum (nodes m c) (words m c) t.val p d := by
  refine (pay5_apply (wblk m c t) k0_pay3 (nblk m c t) acc p d).trans ?_
  unfold blockSum
  refine congrArg (acc (ix2 p d) + ·) (Finset.sum_congr rfl fun k _ => ?_)
  rw [mask_apply, nblk_apply]

/-- One point's update of the running counts. -/
theorem step_cnt (c : Dev nD) (t : Fin cfg0.N) (acc : Vec Ideal S1024x8 .f32) (p : Fin 1024) (e : Fin 8) :
    k0_pay6 (F := Ideal) (wblk m c t) k0_pay3 acc (ix2 p e)
      = acc (ix2 p e) + blockCnt (words m c) t.val p := by
  refine (pay6_apply (wblk m c t) k0_pay3 acc p e).trans ?_
  unfold blockCnt
  refine congrArg (acc (ix2 p e) + ·) (Finset.sum_congr rfl fun k _ => ?_)
  rw [mask_apply]

/-- After point `n`: the table is the column table, the sums and counts are the run's totals up to `n`. -/
def Inv (c : Dev nD) (n : ℕ) (hn : n < cfg0.N) : Prop :=
  (outsAt0 m c n hn).2.2.2.2 = k0_pay3
  ∧ (∀ (p : Fin 1024) (d : Fin 256),
      (outsAt0 m c n hn).2.2.1 (ix2 p d) = runSum (fun b => blockSum (nodes m c) (words m c) b p d) n)
  ∧ (∀ (p : Fin 1024) (e : Fin 8),
      (outsAt0 m c n hn).2.2.2.1 (ix2 p e) = runSum (fun b => blockCnt (words m c) b p) n)

/-- At a run's first point. -/
theorem inv_first (c : Dev nD) (t : Fin cfg0.N) (h0 : t.val % 250 = 0) : Inv m c t.val t.isLt := by
  have h1 : ¬t.val % 250 = 249 := by omega
  unfold Inv
  rw [outsAt0_A m c t h0 h1]
  dsimp only
  refine ⟨tabA (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), fun p d => ?_, fun p e => ?_⟩
  · refine (congrFun (sumA (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 p d)).trans ?_
    refine (step_sum m c t _ p d).trans ?_
    rw [pay1_apply, zero_add, runSum_reset _ _ h0]
  · refine (congrFun (cntA (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 p e)).trans ?_
    refine (step_cnt m c t _ p e).trans ?_
    rw [pay2_apply, zero_add, runSum_reset _ _ h0]

/-- At every other point, from the point before. -/
theorem inv_next (c : Dev nD) (t : Fin cfg0.N) (h0 : ¬t.val % 250 = 0)
    (ih : Inv m c (t.val - 1) (Nat.lt_of_le_of_lt (Nat.sub_le _ _) t.isLt)) : Inv m c t.val t.isLt := by
  obtain ⟨ihT, ihS, ihC⟩ := ih
  have e1 : t.val - 1 + 1 = t.val := by omega
  have hstep : ∀ f : ℕ → EReal, runSum f t.val = runSum f (t.val - 1) + f t.val := fun f => by
    have h := runSum_step f (t.val - 1) (by rw [e1]; exact h0)
    rw [e1] at h
    exact h
  unfold Inv
  by_cases h1 : t.val % 250 = 249
  · rw [outsAt0_C m c t h0 h1]
    dsimp only
    refine ⟨ihT, fun p d => ?_, fun p e => ?_⟩
    · refine (congrFun (sumC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p d)).trans ?_
      rw [ihT]
      refine (step_sum m c t _ p d).trans ?_
      rw [ihS p d, hstep]
    · refine (congrFun (cntC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p e)).trans ?_
      rw [ihT]
      refine (step_cnt m c t _ p e).trans ?_
      rw [ihC p e, hstep]
  · rw [outsAt0_B m c t h0 h1]
    dsimp only
    refine ⟨ihT, fun p d => ?_, fun p e => ?_⟩
    · refine (congrFun (sumB (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p d)).trans ?_
      rw [ihT]
      refine (step_sum m c t _ p d).trans ?_
      rw [ihS p d, hstep]
    · refine (congrFun (cntB (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p e)).trans ?_
      rw [ihT]
      refine (step_cnt m c t _ p e).trans ?_
      rw [ihC p e, hstep]

/-- After every point. -/
theorem inv (c : Dev nD) : ∀ (n : ℕ) (hn : n < cfg0.N), Inv m c n hn
  | 0, hn => inv_first m c ⟨0, hn⟩ (Nat.zero_mod _)
  | n + 1, hn => by
    by_cases h0 : (n + 1) % 250 = 0
    · exact inv_first m c ⟨n + 1, hn⟩ h0
    · exact inv_next m c ⟨n + 1, hn⟩ h0 (inv c n (Nat.lt_of_succ_lt hn))

end Cert.KernelIdeal.SegInv

end
-- ==== Proof.KFinal.lean ====
/-
  The two output arrays after the launch.

  An output block is written back only at a run's last point (points 249 and 499), and there it holds the run's
  totals under a leading unit axis; run `q`'s block is slab `q` of the output array.  The two slabs tile the array,
  so after the launch the array of sums is, slab by slab, each run's sum of block contributions, and the array of
  counts likewise.
-/
import proofs.«411404_j23450521436278_3_alg».proof.Proof.Gen.KernelIdeal.Frame
import proofs.«411404_j23450521436278_3_alg».proof.Proof.KInvariant
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.SegFinal

open Cert.KernelIdeal Cert.KernelIdeal.Gen Cert.SegMean
open Idealize.ShloMosaic Idealize.ShloMosaic.TcCoe Idealize.ShloMosaic.ValueIdx Idealize.SL.Sem
open Idealize.ShloMosaic.Pipeline (Dat)

open Cert.KernelIdeal.SegPieces Cert.KernelIdeal.SegPay Cert.KernelIdeal.SegBlocks Cert.KernelIdeal.SegInv

variable (m : (ℓ : Loc nD τ sig) → Buf (Elt Ideal) ℓ)

/-- The block index of both outputs at point `t`: the run's number on the leading axis, `0` on the others. -/
theorem idx_out : ∀ t : Fin cfg0.N, win0_2.index t 0 = t.val / 250 ∧ win0_2.index t 1 = 0 ∧ win0_2.index t 2 = 0
    ∧ win0_3.index t 0 = t.val / 250 ∧ win0_3.index t 1 = 0 ∧ win0_3.index t 2 = 0 :=
  (by decide +kernel : ∀ t : Fin grid0.N, win0_2.index t 0 = t.val / 250 ∧ win0_2.index t 1 = 0 ∧ win0_2.index t 2 = 0
    ∧ win0_3.index t 0 = t.val / 250 ∧ win0_3.index t 1 = 0 ∧ win0_3.index t 2 = 0)

/-- At a run's last point the output block of sums is the updated running sums under a unit axis. -/
theorem outSum_eq (c : Dev nD) (t : Fin cfg0.N) (h0 : ¬t.val % 250 = 0) (h1 : t.val % 250 = 249) :
    (outsAt0 m c t.val t.isLt).1 = k0_pay7 (F := Ideal) (outsAt0 m c t.val t.isLt).2.2.1 := by
  rw [outsAt0_C m c t h0 h1]
  dsimp only
  exact (outSumC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).trans (congrArg (k0_pay7 (F := Ideal)) (sumC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).symm)

theorem outCnt_eq (c : Dev nD) (t : Fin cfg0.N) (h0 : ¬t.val % 250 = 0) (h1 : t.val % 250 = 249) :
    (outsAt0 m c t.val t.isLt).2.1 = k0_pay8 (F := Ideal) (outsAt0 m c t.val t.isLt).2.2.2.1 := by
  rw [outsAt0_C m c t h0 h1]
  dsimp only
  exact (outCntC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).trans (congrArg (k0_pay8 (F := Ideal)) (cntC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).symm)

/-- A block of sums equal, entry by entry, to slab `t / 250` of `G` is what the write-back at `t` writes of `G`. -/
theorem cut_eq_read_sum (G : S2x1024x256.Idx → EReal) (B : Vec Ideal S1x1024x256 .f32) (t : Fin cfg0.N) (hq : t.val / 250 < 2)
    (h : ∀ (q : Fin 1) (p : Fin 1024) (d : Fin 256), B (ix3 q p d) = G (ix3 ⟨t.val / 250, hq⟩ p d)) :
    (cfg0.win 2).cut (grid0.coords t) B = ((cfg0.win 2).blk t).view.read (Elt Ideal) G := by
  have hi := idx_out t
  funext y
  have hy0 : (y 0).val < 1 := (y 0).isLt
  have hy1 : (y 1).val < 1024 := (y 1).isLt
  have hy2 : (y 2).val < 256 := (y 2).isLt
  have e := h ⟨(y 0).val, hy0⟩ ⟨(y 1).val, hy1⟩ ⟨(y 2).val, hy2⟩
  show B ((cfg0.win 2).xinj (grid0.coords t) y) = G (((cfg0.win 2).blk t).view.emb y)
  have ex : (cfg0.win 2).xinj (grid0.coords t) y = ix3 ⟨(y 0).val, hy0⟩ ⟨(y 1).val, hy1⟩ ⟨(y 2).val, hy2⟩ :=
    funext fun a => Fin.ext (by match a with | ⟨0, _⟩ => rfl | ⟨1, _⟩ => rfl | ⟨2, _⟩ => rfl)
  rw [ex, e]
  refine congrArg G (funext fun a => Fin.ext ?_)
  match a with
  | ⟨0, _⟩ => show t.val / 250 = win0_2.index t 0 * 1 + 1 * (y 0).val; rw [hi.1]; omega
  | ⟨1, _⟩ => show (y 1).val = win0_2.index t 1 * 1024 + 1 * (y 1).val; rw [hi.2.1]; omega
  | ⟨2, _⟩ => show (y 2).val = win0_2.index t 2 * 256 + 1 * (y 2).val; rw [hi.2.2.1]; omega

/-- The same for a block of counts. -/
theorem cut_eq_read_cnt (G : S2x1024x8.Idx → EReal) (B : Vec Ideal S1x1024x8 .f32) (t : Fin cfg0.N) (hq : t.val / 250 < 2)
    (h : ∀ (q : Fin 1) (p : Fin 1024) (e : Fin 8), B (ix3 q p e) = G (ix3 ⟨t.val / 250, hq⟩ p e)) :
    (cfg0.win 3).cut (grid0.coords t) B = ((cfg0.win 3).blk t).view.read (Elt Ideal) G := by
  have hi := idx_out t
  funext y
  have hy0 : (y 0).val < 1 := (y 0).isLt
  have hy1 : (y 1).val < 1024 := (y 1).isLt
  have hy2 : (y 2).val < 8 := (y 2).isLt
  have e := h ⟨(y 0).val, hy0⟩ ⟨(y 1).val, hy1⟩ ⟨(y 2).val, hy2⟩
  show B ((cfg0.win 3).xinj (grid0.coords t) y) = G (((cfg0.win 3).blk t).view.emb y)
  have ex : (cfg0.win 3).xinj (grid0.coords t) y = ix3 ⟨(y 0).val, hy0⟩ ⟨(y 1).val, hy1⟩ ⟨(y 2).val, hy2⟩ :=
    funext fun a => Fin.ext (by match a with | ⟨0, _⟩ => rfl | ⟨1, _⟩ => rfl | ⟨2, _⟩ => rfl)
  rw [ex, e]
  refine congrArg G (funext fun a => Fin.ext ?_)
  match a with
  | ⟨0, _⟩ => show t.val / 250 = win0_3.index t 0 * 1 + 1 * (y 0).val; rw [hi.2.2.2.1]; omega
  | ⟨1, _⟩ => show (y 1).val = win0_3.index t 1 * 1024 + 1 * (y 1).val; rw [hi.2.2.2.2.1]; omega
  | ⟨2, _⟩ => show (y 2).val = win0_3.index t 2 * 8 + 1 * (y 2).val; rw [hi.2.2.2.2.2]; omega

/-- WHAT A RUN'S LAST POINT WRITES BACK of the sums: slab `t / 250` of the runs' totals. -/
theorem flushedSum_eq (c : Dev nD) (t : Fin cfg0.N) (hf : (cfg0.win 2).flush t = true) :
    (dats m 0 c).flushed 2 t
      = ((cfg0.win 2).blk t).view.read (Elt Ideal) (runsSum (nodes m c) (words m c) : S2x1024x256.Idx → EReal) := by
  have hN : t.val < 500 := lt_of_lt_of_eq t.isLt (show cfg0.N = 500 from N_0)
  have h1 : t.val % 250 = 249 := (flush0_2 t).mp hf
  have h0 : ¬t.val % 250 = 0 := by omega
  have hq : t.val / 250 < 2 := by omega
  show (cfg0.win 2).cut (grid0.coords t) ((dats m 0 c).after 2 t) = _
  rw [after0_2, outSum_eq m c t h0 h1]
  refine cut_eq_read_sum _ _ t hq fun q p d => ?_
  rw [pay7_apply, (inv m c t.val t.isLt).2.1 p d, runSum_last _ _ h1]
  rfl

/-- WHAT A RUN'S LAST POINT WRITES BACK of the counts. -/
theorem flushedCnt_eq (c : Dev nD) (t : Fin cfg0.N) (hf : (cfg0.win 3).flush t = true) :
    (dats m 0 c).flushed 3 t
      = ((cfg0.win 3).blk t).view.read (Elt Ideal) (runsCnt (words m c) : S2x1024x8.Idx → EReal) := by
  have hN : t.val < 500 := lt_of_lt_of_eq t.isLt (show cfg0.N = 500 from N_0)
  have h1 : t.val % 250 = 249 := (flush0_3 t).mp hf
  have h0 : ¬t.val % 250 = 0 := by omega
  have hq : t.val / 250 < 2 := by omega
  show (cfg0.win 3).cut (grid0.coords t) ((dats m 0 c).after 3 t) = _
  rw [after0_3, outCnt_eq m c t h0 h1]
  refine cut_eq_read_cnt _ _ t hq fun q p e => ?_
  rw [pay8_apply, (inv m c t.val t.isLt).2.2 p e, runSum_last _ _ h1]
  rfl

/-- An index of the array of sums is in point `t`'s block iff each coordinate is in the block's range. -/
theorem mem_blk_sum (t : Fin cfg0.N) (i : S2x1024x256.Idx) :
    i ∈ ((cfg0.win 2).blk t).view.set ↔ ∀ a : Fin 3, win0_2.index t a * S1x1024x256.size a ≤ (i a).val ∧ (i a).val < win0_2.index t a * S1x1024x256.size a + S1x1024x256.size a := by
  show i ∈ ((View.whole main_v1_0).slice (win0_2.rect t)).set ↔ _
  rw [View.set_slice_whole, Rect.mem_set_unit]
  exact Iff.rfl

theorem mem_blk_cnt (t : Fin cfg0.N) (i : S2x1024x8.Idx) :
    i ∈ ((cfg0.win 3).blk t).view.set ↔ ∀ a : Fin 3, win0_3.index t a * S1x1024x8.size a ≤ (i a).val ∧ (i a).val < win0_3.index t a * S1x1024x8.size a + S1x1024x8.size a := by
  show i ∈ ((View.whole main_v1_1).slice (win0_3.rect t)).set ↔ _
  rw [View.set_slice_whole, Rect.mem_set_unit]
  exact Iff.rfl

/-- Slab `q` of the array of sums is the block written back at the last point of run `q`. -/
theorem cover_sum (i : S2x1024x256.Idx) : ∃ t : Fin cfg0.N, (cfg0.win 2).flush t = true ∧ i ∈ ((cfg0.win 2).blk t).view.set := by
  have hN : cfg0.N = 500 := N_0
  have hi0 : (i 0).val < 2 := (i 0).isLt
  have hi1 : (i 1).val < 1024 := (i 1).isLt
  have hi2 : (i 2).val < 256 := (i 2).isLt
  have hlt : 250 * (i 0).val + 249 < cfg0.N := by rw [hN]; omega
  refine ⟨⟨250 * (i 0).val + 249, hlt⟩, (flush0_2 _).mpr (by show (250 * (i 0).val + 249) % 250 = 249; omega), ?_⟩
  have hi := idx_out ⟨250 * (i 0).val + 249, hlt⟩
  have ht : (250 * (i 0).val + 249) / 250 = (i 0).val := by omega
  rw [mem_blk_sum]
  intro a
  match a with
  | ⟨0, _⟩ => show win0_2.index ⟨250 * (i 0).val + 249, hlt⟩ 0 * 1 ≤ (i 0).val ∧ (i 0).val < win0_2.index ⟨250 * (i 0).val + 249, hlt⟩ 0 * 1 + 1; rw [hi.1]; show (250 * (i 0).val + 249) / 250 * 1 ≤ _ ∧ _ < (250 * (i 0).val + 249) / 250 * 1 + 1; rw [ht]; omega
  | ⟨1, _⟩ => show win0_2.index ⟨250 * (i 0).val + 249, hlt⟩ 1 * 1024 ≤ (i 1).val ∧ (i 1).val < win0_2.index ⟨250 * (i 0).val + 249, hlt⟩ 1 * 1024 + 1024; rw [hi.2.1]; omega
  | ⟨2, _⟩ => show win0_2.index ⟨250 * (i 0).val + 249, hlt⟩ 2 * 256 ≤ (i 2).val ∧ (i 2).val < win0_2.index ⟨250 * (i 0).val + 249, hlt⟩ 2 * 256 + 256; rw [hi.2.2.1]; omega

theorem cover_cnt (i : S2x1024x8.Idx) : ∃ t : Fin cfg0.N, (cfg0.win 3).flush t = true ∧ i ∈ ((cfg0.win 3).blk t).view.set := by
  have hN : cfg0.N = 500 := N_0
  have hi0 : (i 0).val < 2 := (i 0).isLt
  have hi1 : (i 1).val < 1024 := (i 1).isLt
  have hi2 : (i 2).val < 8 := (i 2).isLt
  have hlt : 250 * (i 0).val + 249 < cfg0.N := by rw [hN]; omega
  refine ⟨⟨250 * (i 0).val + 249, hlt⟩, (flush0_3 _).mpr (by show (250 * (i 0).val + 249) % 250 = 249; omega), ?_⟩
  have hi := idx_out ⟨250 * (i 0).val + 249, hlt⟩
  have ht : (250 * (i 0).val + 249) / 250 = (i 0).val := by omega
  rw [mem_blk_cnt]
  intro a
  match a with
  | ⟨0, _⟩ => show win0_3.index ⟨250 * (i 0).val + 249, hlt⟩ 0 * 1 ≤ (i 0).val ∧ (i 0).val < win0_3.index ⟨250 * (i 0).val + 249, hlt⟩ 0 * 1 + 1; rw [hi.2.2.2.1]; show (250 * (i 0).val + 249) / 250 * 1 ≤ _ ∧ _ < (250 * (i 0).val + 249) / 250 * 1 + 1; rw [ht]; omega
  | ⟨1, _⟩ => show win0_3.index ⟨250 * (i 0).val + 249, hlt⟩ 1 * 1024 ≤ (i 1).val ∧ (i 1).val < win0_3.index ⟨250 * (i 0).val + 249, hlt⟩ 1 * 1024 + 1024; rw [hi.2.2.2.2.1]; omega
  | ⟨2, _⟩ => show win0_3.index ⟨250 * (i 0).val + 249, hlt⟩ 2 * 8 ≤ (i 2).val ∧ (i 2).val < win0_3.index ⟨250 * (i 0).val + 249, hlt⟩ 2 * 8 + 8; rw [hi.2.2.2.2.2]; omega

/-- THE ARRAY OF SUMS after the launch: slab by slab, each run's total. -/
theorem final_sum (c : Dev nD) :
    (dats m 0 c).arrAt 2 cfg0.N = (runsSum (nodes m c) (words m c) : S2x1024x256.Idx → EReal) :=
  (dats m 0 c).arrAt_eq_of_cover 2 _ (flushedSum_eq m c) cover_sum

/-- THE ARRAY OF COUNTS after the launch. -/
theorem final_cnt (c : Dev nD) :
    (dats m 0 c).arrAt 3 cfg0.N = (runsCnt (words m c) : S2x1024x8.Idx → EReal) :=
  (dats m 0 c).arrAt_eq_of_cover 3 _ (flushedCnt_eq m c) cover_cnt

end Cert.KernelIdeal.SegFinal

end
-- ==== Proof.Tail.lean ====
/-
  What both programs do with the segment sums and counts.

  From the 1024 × 256 sums `S` and the 1024 counts `C`: the mean of a segment is its sum over `max(count, 1)`, kept
  where the count is positive and replaced by zero elsewhere; the means go through one dense layer (a product with
  the 256 × 1 weights plus the bias) and the logistic function `1 / (1 + exp(-z))`.  The kernel's host lines after
  its launch and the reference's lines after its two scatters are this same chain, operation for operation.
-/
import proofs.«411404_j23450521436278_3_alg».proof.KernelIdeal
import proofs.«411404_j23450521436278_3_alg».proof.Proof.Gen.KernelIdeal

noncomputable section

namespace Cert.KernelIdeal.SegTail

open Cert.KernelIdeal Cert.KernelIdeal.Gen
open Idealize.ShloMosaic Idealize.ShloMosaic.TcCoe

variable {F : FTy → Type} [FloatOps F]

/-- Means where the count is positive (zero elsewhere), the dense layer, the logistic function. -/
def tail (S : FVec F S1024x256 .f32) (C : FVec F S1024 .f32) (W : FVec F S256x1 .f32) (b : FVec F S1 .f32) :
    FVec F S1024x1 .f32 :=
  Host.divf (broadcastInDim S1024x1 ![] bcast_S_S1024x1 (constant S_ .f32 0x3F800000#32))
    (addf (broadcastInDim S1024x1 ![] bcast_S_S1024x1 (constant S_ .f32 0x3F800000#32))
      (Host.exp (Host.negf (addf
        (Host.dotGeneral dot_S1024x256_S256x1_S1024x1_1_0_0_1_n_n none
          (select
            (broadcastInDim S1024x256 ![0, 1] bcast_S1024x1_S1024x256_0_1
              (cmpf (F := F) .ogt (broadcastInDim S1024x1 ![0] bcast_S1024_S1024x1_0 C)
                (broadcastInDim S1024x1 ![] bcast_S_S1024x1 (constant S_ .f32 0x00000000#32))))
            (Host.divf S
              (broadcastInDim S1024x256 ![0, 1] bcast_S1024x1_S1024x256_0_1
                (broadcastInDim S1024x1 ![0] bcast_S1024_S1024x1_0
                  (maximumf C (broadcastInDim S1024 ![] bcast_S_S1024 (constant S_ .f32 0x3F800000#32))))))
            (broadcastInDim S1024x256 ![] bcast_S_S1024x256 (id (constant S_ .f32 0x00000000#32))))
          W)
        (broadcastInDim S1024x1 ![0, 1] bcast_S1x1_S1024x1_0_1 (broadcastInDim S1x1 ![1] bcast_S1_S1x1_1 b))))))

end Cert.KernelIdeal.SegTail

end
-- ==== Proof.KTail.lean ====
/-
  The kernel's result as the common chain applied to the launch's two output arrays.

  The host lines after the launch add the two slabs of the array of sums, take column 0 of the array of counts,
  drop its unit axis and add its two slabs, and then run the common chain (means, dense layer, logistic function)
  on those sums and counts with the weights and the bias, which no line before has written.
-/
import proofs.«411404_j23450521436278_3_alg».proof.Proof.Gen.KernelIdeal.Frame
import proofs.«411404_j23450521436278_3_alg».proof.Proof.Tail
import proofs.«411404_j23450521436278_3_alg».proof.Proof.SegMath
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.SegKTail

open Cert.KernelIdeal Cert.KernelIdeal.Gen Cert.SegMean
open Idealize.ShloMosaic Idealize.ShloMosaic.TcCoe Idealize.ShloMosaic.ValueIdx Idealize.SL.Sem
open Idealize.ShloMosaic.Pipeline (Dat)

open Cert.KernelIdeal.SegTail

variable {F : FTy → Type} [FloatOps F]
variable (m : (ℓ : Loc nD τ sig) → Buf (Elt F) ℓ)

/-- The sums the host forms from the launch's array of sums, and the counts from its array of counts. -/
abbrev sumsOf (A : FVec F S2x1024x256 .f32) : FVec F S1024x256 .f32 :=
  Host.reduceAdd A (constant S_ .f32 0x00000000#32) reducesTo_S2x1024x256_S1024x256_d0 h_S_
abbrev cntsOf (A : FVec F S2x1024x8 .f32) : FVec F S1024 .f32 :=
  Host.reduceAdd (shapeCast S2x1024 (extractStridedSlice S2x1024x1 ![0, 0, 0] A slices_S2x1024x8_S2x1024x1_0_0_0)
    shapeCasts_S2x1024x1_S2x1024) (constant S_ .f32 0x00000000#32) reducesTo_S2x1024_S1024_d0 h_S_

set_option maxHeartbeats 2000000 in
/-- The result buffer after the host lines that follow the launch. -/
theorem tail_eq (c : Dev nD) :
    Pipeline.afterTail₀ cfgs (dats m) 0 (V0 m) [hostOps1, hostOps1_1, hostOps1_2] c main_v24
      = tail (sumsOf ((dats m 0 c).arrAt 2 cfg0.N)) (cntsOf ((dats m 0 c).arrAt 3 cfg0.N))
          (m ((c : Thread nD τ).loc main_arg7)) (m ((c : Thread nD τ).loc main_arg8)) := by
  unfold Pipeline.afterTail₀
  simp only [hostOps1, hostOps1_1, hostOps1_2, List.flatten_cons, List.flatten_nil, List.append_nil, List.cons_append,
    List.nil_append]
  after_results_simp
  have e2 : Pipeline.withArrays (cfgs 0).spec c (V0 m c) (fun w => (dats m 0 c).arrAt w (cfgs 0).N) (Proc.devRef .tc main_v1_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v1_1)
      = (dats m 0 c).arrAt 3 cfg0.N := Pipeline.withArrays_arr spec0 launch0.win.arr_inj c _ _ 3
  have e7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans (V_main_arg7 m c)
  have e8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans (V_main_arg8 m c)
  rw [e2, e3, e7, e8]
  rfl

end Cert.KernelIdeal.SegKTail

end
-- ==== Proof.KRun.lean ====
/-
  The kernel's run, read: the result buffer ends at the common chain applied to the two runs' totals added, the
  argument arrays unchanged.
-/
import proofs.«411404_j23450521436278_3_alg».proof.Proof.Gen.KernelIdeal.Frame
import proofs.«411404_j23450521436278_3_alg».proof.Proof.KFinal
import proofs.«411404_j23450521436278_3_alg».proof.Proof.KTail
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.SegRun

open Cert.KernelIdeal Cert.KernelIdeal.Gen Cert.SegMean
open Idealize.ShloMosaic Idealize.ShloMosaic.TcCoe Idealize.ShloMosaic.ValueIdx Idealize.SL.Sem
open Idealize.ShloMosaic.Pipeline (Dat)

open Cert.KernelIdeal.SegInv Cert.KernelIdeal.SegFinal Cert.KernelIdeal.SegKTail Cert.KernelIdeal.SegTail

variable (m : (ℓ : Loc nD τ sig) → Buf (Elt Ideal) ℓ) (ρ : Dev nD → PrngReg)

/-- The kernel's result on core `c`. -/
def result (c : Dev nD) : Buf (Elt Ideal) ((c.tc : Thread nD τ).loc main_v24) :=
  tail (F := Ideal) (sumsOf (runsSum (nodes m c) (words m c) : FVec Ideal S2x1024x256 .f32))
    (cntsOf (runsCnt (words m c) : FVec Ideal S2x1024x8 .f32))
    (m ((c : Thread nD τ).loc main_arg7)) (m ((c : Thread nD τ).loc main_arg8))

theorem run : θ_run defs (onTc (τ := τ) (main (F := Ideal))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v24 (Pipeline.mem_restRefs_of main_v24 (by decide) (by decide))).trans
        ((tail_eq m c).trans (by rw [final_sum, final_cnt]; rfl)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.SegRun

end
-- ==== Proof.KReduce.lean ====
/-
  The host's sums over the two runs, read at one segment.

  After the launch the two runs' totals sit in two slabs of one array; the host adds the slabs (a reduction over
  the leading axis from a zero initial value).  At segment `p`, column `d` that is zero plus run 0's total plus
  run 1's total, and the two runs' blocks together are all the rows: the sum over ALL rows of indicator times
  entry.  For the counts the host first keeps column 0 of the eight equal count columns and drops the unit axis.
-/
import proofs.«411404_j23450521436278_3_alg».proof.KernelIdeal
import proofs.«411404_j23450521436278_3_alg».proof.Proof.Gen.KernelIdeal
import proofs.«411404_j23450521436278_3_alg».proof.Proof.SegAcc
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SegReduce

open Cert.KernelIdeal Cert.KernelIdeal.Gen Cert.SegMean
open Idealize.ShloMosaic Idealize.ShloMosaic.TcCoe Idealize.ShloMosaic.ValueIdx

/-- Segment `p`, column `d` of the two runs' totals added: every row whose segment word is `p`'s. -/
theorem reduceSum_apply (X : FVec Ideal S1000000x256 .f32) (I : IVec S1000000 32) (p : Fin 1024) (d : Fin 256) :
    Host.reduceAdd (F := Ideal) (runsSum X I : FVec Ideal S2x1024x256 .f32) (constant (F := Ideal) S_ .f32 0x00000000#32)
        reducesTo_S2x1024x256_S1024x256_d0 h_S_ (ix2 p d)
      = ∑ R : Fin 1000000, ind (colW p) (I (ix1 R)) * X (ix2 R d) := by
  have hR : S2x1024x256.Reduces [0] S1024x256 := by decide
  show Ideal.hostReduceAdd reducesTo_S2x1024x256_S1024x256_d0 (runsSum X I) (Ideal.ofBits .f32 0x00000000#32) (ix2 p d) = _
  rw [Ideal.hostReduceAdd_single _ hR, Ideal.ofBits_zero_f32, zero_add, ← runs_blockSum X I p d]
  refine Finset.sum_congr rfl fun (q : Fin 2) _ => ?_
  have hl : hR.lift (ix2 p d) q = ix3 q p d :=
    funext fun a => Fin.ext (by match a with | ⟨0, _⟩ => rfl | ⟨1, _⟩ => rfl | ⟨2, _⟩ => rfl)
  rw [hl]
  rfl

/-- Segment `p` of the two runs' counts added (column 0 of the count slabs): the number of rows whose segment
    word is `p`'s. -/
theorem reduceCnt_apply (I : IVec S1000000 32) (p : Fin 1024) :
    Host.reduceAdd (F := Ideal)
        (shapeCast S2x1024 (extractStridedSlice S2x1024x1 ![0, 0, 0] (runsCnt I : FVec Ideal S2x1024x8 .f32) slices_S2x1024x8_S2x1024x1_0_0_0)
          shapeCasts_S2x1024x1_S2x1024)
        (constant (F := Ideal) S_ .f32 0x00000000#32) reducesTo_S2x1024_S1024_d0 h_S_ (ix1 p)
      = ∑ R : Fin 1000000, ind (colW p) (I (ix1 R)) * 1 := by
  have hR : S2x1024.Reduces [0] S1024 := by decide
  show Ideal.hostReduceAdd reducesTo_S2x1024_S1024_d0
      (shapeCast S2x1024 (extractStridedSlice S2x1024x1 ![0, 0, 0] (runsCnt I : FVec Ideal S2x1024x8 .f32) slices_S2x1024x8_S2x1024x1_0_0_0)
        shapeCasts_S2x1024x1_S2x1024)
      (Ideal.ofBits .f32 0x00000000#32) (ix1 p) = _
  rw [Ideal.hostReduceAdd_single _ hR, Ideal.ofBits_zero_f32, zero_add, ← runs_blockCnt I p]
  refine Finset.sum_congr rfl fun (q : Fin 2) _ => ?_
  have hl : hR.lift (ix1 p) q = ix2 q p :=
    funext fun a => Fin.ext (by match a with | ⟨0, _⟩ => rfl | ⟨1, _⟩ => rfl)
  rw [hl]
  refine (shapeCast_apply _ _ (ix2 q p) (ix3 q p (0 : Fin 1)) ?_).trans ?_
  · rw [Shape.rowMajor_val_three, Shape.rowMajor_val_two]
    show (q.val * 1024 + p.val) * 1 + 0 = q.val * 1024 + p.val
    omega
  refine (extractStridedSlice_apply (s := S2x1024x8) (t := S2x1024x1) ![0, 0, 0] (runsCnt I)
    slices_S2x1024x8_S2x1024x1_0_0_0 (ix3 q p (0 : Fin 1)) (ix3 q p (0 : Fin 8)) ?_).trans ?_
  · intro a
    match a with
    | ⟨0, _⟩ => exact (Nat.zero_add _).symm
    | ⟨1, _⟩ => exact (Nat.zero_add _).symm
    | ⟨2, _⟩ => rfl
  rfl

end Cert.KernelIdeal.SegReduce

end
-- ==== Proof.RefTail.lean ====
/-
  The reference's result as the common chain applied to its two scatters.

  The reference scatters the node rows, and a vector of ones, into zero arrays by the segment words, and then runs
  the common chain (means where the count is positive, the dense layer, the logistic function) on those sums and
  counts: its composed term is that chain, operation for operation.
-/
import proofs.«411404_j23450521436278_3_alg».proof.Proof.RefRun
import proofs.«411404_j23450521436278_3_alg».proof.Proof.Tail

noncomputable section

namespace Cert.ReferenceIdeal.SegRefTail

open Cert.ReferenceIdeal Cert.ReferenceIdeal.Gen
open Idealize.ShloMosaic Idealize.ShloMosaic.TcCoe

variable {F : FTy → Type} [FloatOps F]

/-- The scattered sums and the scattered counts. -/
abbrev scatSum (X : FVec F S1000000x256 .f32) (I : IVec S1000000 32) : FVec F S1024x256 .f32 :=
  Host.scatterAdd scatter_S1024x256_S1000000x1_S1000000x256_1_0_0_1
    (broadcastInDim S1024x256 ![] bcast_S_S1024x256 (constant S_ .f32 0x00000000#32))
    (broadcastInDim S1000000x1 ![0] bcast_S1000000_S1000000x1_0 I) X
abbrev scatCnt (I : IVec S1000000 32) : FVec F S1024 .f32 :=
  Host.scatterAdd scatter_S1024_S1000000x1_S1000000_n_0_0_1
    (broadcastInDim S1024 ![] bcast_S_S1024 (constant S_ .f32 0x00000000#32))
    (broadcastInDim S1000000x1 ![0] bcast_S1000000_S1000000x1_0 I)
    (broadcastInDim S1000000 ![] bcast_S_S1000000 (constant S_ .f32 0x3F800000#32))

/-- The reference run's composed term is the common chain of its scatters. -/
theorem term_eq (X : FVec F S1000000x256 .f32) (I : IVec S1000000 32) (W : FVec F S256x1 .f32) (b : FVec F S1 .f32) :
    Host.divf (broadcastInDim S1024x1 ![] bcast_S_S1024x1 (constant S_ .f32 0x3F800000#32)) (addf (broadcastInDim S1024x1 ![] bcast_S_S1024x1 (constant S_ .f32 0x3F800000#32)) (Host.exp (Host.negf (addf (Host.dotGeneral dot_S1024x256_S256x1_S1024x1_1_0_0_1_n_n none (select (broadcastInDim S1024x256 ![0, 1] bcast_S1024x1_S1024x256_0_1 (cmpf (F := F) .ogt (broadcastInDim S1024x1 ![0] bcast_S1024_S1024x1_0 (Host.scatterAdd scatter_S1024_S1000000x1_S1000000_n_0_0_1 (broadcastInDim S1024 ![] bcast_S_S1024 (constant S_ .f32 0x00000000#32)) (broadcastInDim S1000000x1 ![0] bcast_S1000000_S1000000x1_0 I) (broadcastInDim S1000000 ![] bcast_S_S1000000 (constant S_ .f32 0x3F800000#32)))) (broadcastInDim S1024x1 ![] bcast_S_S1024x1 (constant S_ .f32 0x00000000#32)))) (Host.divf (Host.scatterAdd scatter_S1024x256_S1000000x1_S1000000x256_1_0_0_1 (broadcastInDim S1024x256 ![] bcast_S_S1024x256 (constant S_ .f32 0x00000000#32)) (broadcastInDim S1000000x1 ![0] bcast_S1000000_S1000000x1_0 I) X) (broadcastInDim S1024x256 ![0, 1] bcast_S1024x1_S1024x256_0_1 (broadcastInDim S1024x1 ![0] bcast_S1024_S1024x1_0 (maximumf (Host.scatterAdd scatter_S1024_S1000000x1_S1000000_n_0_0_1 (broadcastInDim S1024 ![] bcast_S_S1024 (constant S_ .f32 0x00000000#32)) (broadcastInDim S1000000x1 ![0] bcast_S1000000_S1000000x1_0 I) (broadcastInDim S1000000 ![] bcast_S_S1000000 (constant S_ .f32 0x3F800000#32))) (broadcastInDim S1024 ![] bcast_S_S1024 (constant S_ .f32 0x3F800000#32)))))) (broadcastInDim S1024x256 ![] bcast_S_S1024x256 (id (constant S_ .f32 0x00000000#32)))) W) (broadcastInDim S1024x1 ![0, 1] bcast_S1x1_S1024x1_0_1 (broadcastInDim S1x1 ![1] bcast_S1_S1x1_1 b))))))
      = Cert.KernelIdeal.SegTail.tail (scatSum X I) (scatCnt I) W b := rfl

end Cert.ReferenceIdeal.SegRefTail

end
-- ==== Proof.RefScatter.lean ====
/-
  The reference's two accumulating scatters, read at one segment.

  The scatter of the node rows into 1024 segment rows adds row `R` of the updates to operand row `p` exactly when
  the start index read off the indices at `R` — a 32-bit word read SIGNED, not clamped — is `p`; a row whose
  start falls outside `[0, 1024)` is dropped.  A word read signed is `p < 1024` exactly when it is `p`'s word, so
  with a zero operand segment `p`, column `d` ends at the sum over ALL rows of indicator times entry; the scatter
  of a vector of ones counts the rows the same way.
-/
import proofs.«411404_j23450521436278_3_alg».proof.ReferenceIdeal
import proofs.«411404_j23450521436278_3_alg».proof.Proof.Gen.ReferenceIdeal
import proofs.«411404_j23450521436278_3_alg».proof.Proof.SegMath
import Idealize.ShloMosaic.PureOps.Ideal.Laws
import Idealize.ShloMosaic.Lib.ValueIdx
import Idealize.ShloMosaic.Lib.Pipeline.Value

noncomputable section

namespace Cert.ReferenceIdeal.SegRef

open Cert.ReferenceIdeal Cert.ReferenceIdeal.Gen Cert.SegMean
open Idealize.ShloMosaic Idealize.ShloMosaic.TcCoe Idealize.ShloMosaic.ValueIdx

/-! ## The scatter at ideal values with a zero operand: a sum over every update of "lands here" times the update -/

/-- Where the operand is zero, the accumulating scatter at an index is the sum over ALL updates of the update
    under the condition that its result index is that index. -/
theorem scatterAdd_apply_zero {s si su : Shape} (D : ScatterDims s si su) {w : Nat} (x : FVec Ideal s .f32)
    (idx : IVec si w) (upd : FVec Ideal su .f32) (i : s.Idx) (hx : x i = 0) :
    Host.scatterAdd (F := Ideal) D x idx upd i = ∑ j, if D.resultIdx? j idx = some i then upd j else 0 := by
  unfold Host.scatterAdd
  rw [Ideal.hostScatterAdd_def]
  unfold Ideal.hostScatterAdd
  rw [hx, zero_add, Finset.sum_filter]

/-! ## The operands read at an index -/

/-- The segment words as a column: row `R`'s one entry is row `R`'s word. -/
theorem idxBcast_apply (I : IVec S1000000 32) (R : Fin 1000000) :
    broadcastInDim S1000000x1 ![0] bcast_S1000000_S1000000x1_0 I (ix2 R 0) = I (ix1 R) := by
  refine broadcastInDim_apply _ _ I _ (ix1 R) fun a => ?_
  match a with
  | ⟨0, _⟩ =>
    have h1 : ¬ (1000000 : ℕ) = 1 := by decide
    exact (if_neg h1).symm

/-- The zero operand of the sums is `0` everywhere. -/
theorem zero2_apply (i : S1024x256.Idx) :
    broadcastInDim S1024x256 ![] bcast_S_S1024x256 (constant (F := Ideal) S_ .f32 0x00000000#32) i = 0 := by
  rw [broadcastInDim_apply _ _ _ i ix0 (fun a => a.elim0), constant_apply, Ideal.ofBits_zero_f32]

/-- The zero operand of the counts is `0` everywhere. -/
theorem zero1_apply (i : S1024.Idx) :
    broadcastInDim S1024 ![] bcast_S_S1024 (constant (F := Ideal) S_ .f32 0x00000000#32) i = 0 := by
  rw [broadcastInDim_apply _ _ _ i ix0 (fun a => a.elim0), constant_apply, Ideal.ofBits_zero_f32]

/-- The vector of ones is `1` everywhere. -/
theorem one1_apply (j : S1000000.Idx) :
    broadcastInDim S1000000 ![] bcast_S_S1000000 (constant (F := Ideal) S_ .f32 0x3F800000#32) j = 1 := by
  rw [broadcastInDim_apply _ _ _ j ix0 (fun a => a.elim0), constant_apply]
  exact IdealRules.sign_bit.ideal_onePat .f32

/-! ## Sums over the coordinates -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the columns of an entry kept only at column `d` (and only if `c`) is that entry (if `c`). -/
theorem sum_ite_and {c : Prop} [Decidable c] (f : Fin 256 → EReal) (d : Fin 256) :
    ∑ d' : Fin 256, (if c ∧ d' = d then f d' else 0) = if c then f d else 0 := by
  by_cases hc : c
  · simp only [hc, true_and, if_true]
    rw [Finset.sum_ite_eq' Finset.univ d f, if_pos (Finset.mem_univ d)]
  · simp only [hc, false_and, if_false]
    exact Finset.sum_const_zero

/-! ## The scatter of the rows: start, window coordinate and result index of update `(R, d')` -/

local notation "D2" => scatter_S1024x256_S1000000x1_S1000000x256_1_0_0_1

/-- On the segment axis the window starts at row `R`'s word, read signed. -/
theorem start2_0 (idx : IVec S1000000x1 32) (R : Fin 1000000) (d' : Fin 256) :
    (D2).start (ix2 R d') idx 0 = (idx (ix2 R 0)).toInt := by
  unfold ScatterDims.start
  rw [dif_pos (by decide)]
  congr 2
  funext a
  match a with
  | ⟨0, _⟩ => rfl
  | ⟨1, _⟩ => rfl

/-- On the column axis the window starts at `0`. -/
theorem start2_1 (idx : IVec S1000000x1 32) (R : Fin 1000000) (d' : Fin 256) :
    (D2).start (ix2 R d') idx 1 = 0 := by
  unfold ScatterDims.start
  rw [dif_neg (by decide)]

/-- The segment axis is inserted: window coordinate `0`. -/
theorem window2_0 (R : Fin 1000000) (d' : Fin 256) : (D2).window (ix2 R d') 0 = 0 := by
  unfold ScatterDims.window
  rw [dif_neg (by decide)]

/-- The column axis carries the update's column. -/
theorem window2_1 (R : Fin 1000000) (d' : Fin 256) : (D2).window (ix2 R d') 1 = d'.val := by
  unfold ScatterDims.window
  rw [dif_pos (by decide)]
  rfl

/-- Update `(R, d')` lands at `(p, d)` exactly when row `R`'s word read signed is `p` and the columns agree. -/
theorem resultIdx2_iff (idx : IVec S1000000x1 32) (R : Fin 1000000) (d' : Fin 256) (p : Fin 1024) (d : Fin 256) :
    (D2).resultIdx? (ix2 R d') idx = some (ix2 p d) ↔ (idx (ix2 R 0)).toInt = (p.val : ℤ) ∧ d' = d := by
  unfold ScatterDims.resultIdx?
  constructor
  · intro h
    split at h
    · rename_i hb
      have h' := Option.some.inj h
      have h0 : ((D2).start (ix2 R d') idx 0 + ((D2).window (ix2 R d') 0 : ℕ)).toNat = p.val :=
        congrArg (fun f => (f 0).val) h'
      have h1 : ((D2).start (ix2 R d') idx 1 + ((D2).window (ix2 R d') 1 : ℕ)).toNat = d.val :=
        congrArg (fun f => (f 1).val) h'
      have hb0 := (hb 0).1
      rw [start2_0, window2_0] at h0 hb0
      rw [start2_1, window2_1] at h1
      constructor
      · omega
      · apply Fin.ext; omega
    · exact absurd h (by simp)
  · rintro ⟨h0, rfl⟩
    have hb : ∀ a, 0 ≤ (D2).start (ix2 R d') idx a + (D2).window (ix2 R d') a ∧
        (D2).start (ix2 R d') idx a + (D2).window (ix2 R d') a < S1024x256.size a := by
      intro a
      match a with
      | ⟨0, _⟩ =>
        show 0 ≤ (D2).start (ix2 R d') idx 0 + ((D2).window (ix2 R d') 0 : ℕ) ∧
          (D2).start (ix2 R d') idx 0 + ((D2).window (ix2 R d') 0 : ℕ) < (1024 : ℕ)
        rw [start2_0, window2_0, h0]
        have := p.isLt
        omega
      | ⟨1, _⟩ =>
        show 0 ≤ (D2).start (ix2 R d') idx 1 + ((D2).window (ix2 R d') 1 : ℕ) ∧
          (D2).start (ix2 R d') idx 1 + ((D2).window (ix2 R d') 1 : ℕ) < (256 : ℕ)
        rw [start2_1, window2_1]
        have := d'.isLt
        omega
    rw [dif_pos hb]
    congr 1
    funext a
    apply Fin.ext
    match a with
    | ⟨0, _⟩ =>
      show ((D2).start (ix2 R d') idx 0 + ((D2).window (ix2 R d') 0 : ℕ)).toNat = p.val
      rw [start2_0, window2_0, h0]
      omega
    | ⟨1, _⟩ =>
      show ((D2).start (ix2 R d') idx 1 + ((D2).window (ix2 R d') 1 : ℕ)).toNat = d'.val
      rw [start2_1, window2_1]
      omega

/-! ## The scatter of the ones: start, window coordinate and result index of update `R` -/

local notation "D1" => scatter_S1024_S1000000x1_S1000000_n_0_0_1

/-- On the one operand axis the window starts at row `R`'s word, read signed. -/
theorem start1_0 (idx : IVec S1000000x1 32) (R : Fin 1000000) :
    (D1).start (ix1 R) idx 0 = (idx (ix2 R 0)).toInt := by
  unfold ScatterDims.start
  rw [dif_pos (by decide)]
  congr 2
  funext a
  match a with
  | ⟨0, _⟩ => rfl
  | ⟨1, _⟩ => rfl

/-- The one operand axis is inserted: window coordinate `0`. -/
theorem window1_0 (R : Fin 1000000) : (D1).window (ix1 R) 0 = 0 := by
  unfold ScatterDims.window
  rw [dif_neg (by decide)]

/-- Update `R` lands at `p` exactly when row `R`'s word read signed is `p`. -/
theorem resultIdx1_iff (idx : IVec S1000000x1 32) (R : Fin 1000000) (p : Fin 1024) :
    (D1).resultIdx? (ix1 R) idx = some (ix1 p) ↔ (idx (ix2 R 0)).toInt = (p.val : ℤ) := by
  unfold ScatterDims.resultIdx?
  constructor
  · intro h
    split at h
    · rename_i hb
      have h' := Option.some.inj h
      have h0 : ((D1).start (ix1 R) idx 0 + ((D1).window (ix1 R) 0 : ℕ)).toNat = p.val :=
        congrArg (fun f => (f 0).val) h'
      have hb0 := (hb 0).1
      rw [start1_0, window1_0] at h0 hb0
      omega
    · exact absurd h (by simp)
  · intro h0
    have hb : ∀ a, 0 ≤ (D1).start (ix1 R) idx a + (D1).window (ix1 R) a ∧
        (D1).start (ix1 R) idx a + (D1).window (ix1 R) a < S1024.size a := by
      intro a
      match a with
      | ⟨0, _⟩ =>
        show 0 ≤ (D1).start (ix1 R) idx 0 + ((D1).window (ix1 R) 0 : ℕ) ∧
          (D1).start (ix1 R) idx 0 + ((D1).window (ix1 R) 0 : ℕ) < (1024 : ℕ)
        rw [start1_0, window1_0, h0]
        have := p.isLt
        omega
    rw [dif_pos hb]
    congr 1
    funext a
    apply Fin.ext
    match a with
    | ⟨0, _⟩ =>
      show ((D1).start (ix1 R) idx 0 + ((D1).window (ix1 R) 0 : ℕ)).toNat = p.val
      rw [start1_0, window1_0, h0]
      omega

/-! ## The two scatters at one segment -/

/-- Segment `p`, column `d` of the scattered sums: every row whose segment word is `p`'s. -/
theorem scatterSum_apply (X : FVec Ideal S1000000x256 .f32) (I : IVec S1000000 32) (p : Fin 1024) (d : Fin 256) :
    Host.scatterAdd (F := Ideal) scatter_S1024x256_S1000000x1_S1000000x256_1_0_0_1
        (broadcastInDim S1024x256 ![] bcast_S_S1024x256 (constant (F := Ideal) S_ .f32 0x00000000#32))
        (broadcastInDim S1000000x1 ![0] bcast_S1000000_S1000000x1_0 I) X (ix2 p d)
      = ∑ R : Fin 1000000, ind (colW p) (I (ix1 R)) * X (ix2 R d) := by
  refine (scatterAdd_apply_zero _ _ _ _ _ (zero2_apply _)).trans ?_
  rw [sum_idx2]
  refine Finset.sum_congr rfl fun R _ => ?_
  simp only [resultIdx2_iff, toInt_eq_iff]
  rw [sum_ite_and, ind_mul, idxBcast_apply]

/-- Segment `p` of the scattered ones: the number of rows whose segment word is `p`'s. -/
theorem scatterCnt_apply (I : IVec S1000000 32) (p : Fin 1024) :
    Host.scatterAdd (F := Ideal) scatter_S1024_S1000000x1_S1000000_n_0_0_1
        (broadcastInDim S1024 ![] bcast_S_S1024 (constant (F := Ideal) S_ .f32 0x00000000#32))
        (broadcastInDim S1000000x1 ![0] bcast_S1000000_S1000000x1_0 I)
        (broadcastInDim S1000000 ![] bcast_S_S1000000 (constant (F := Ideal) S_ .f32 0x3F800000#32)) (ix1 p)
      = ∑ R : Fin 1000000, ind (colW p) (I (ix1 R)) * 1 := by
  refine (scatterAdd_apply_zero _ _ _ _ _ (zero1_apply _)).trans ?_
  rw [sum_idx1]
  refine Finset.sum_congr rfl fun R _ => ?_
  rw [ind_mul, one1_apply]
  simp only [resultIdx1_iff, toInt_eq_iff]
  rw [idxBcast_apply]

end Cert.ReferenceIdeal.SegRef

end
-- ==== Proof.lean ====
/-
  A segment mean over one million node rows, a dense layer and the logistic function: the kernel against its
  reference, over the extended reals.

  THE KERNEL walks a 2 × 250 grid; point (j, i) stages rows 2000·(250 j + i) … + 1999 of the 1 000 000 × 256 node
  array and of the column of segment words.  It compares each row's segment word with a stored table of the column
  words 0 … 1023, turns the mask into 1 and 0, and adds, by two matrix products contracting the row axis, the
  masked rows (and the masked ones) to running sums and counts; these restart at i = 0 and are copied to slab j
  of two output arrays at i = 249.  The host then adds the two slabs.  So segment p, column d ends at the sum
  over ALL rows R of [word R = word of p] · node(R, d): the grid's blocks are the rows, each once, and addition of
  extended reals is commutative and associative; the count of segment p is the same sum of [word R = word of p] · 1.
  A row whose word is no column word (negative, or 1024 and above) meets no column and is dropped.

  THE REFERENCE scatters the rows, and a vector of ones, into zero arrays at the segment word read signed and not
  clamped; a row landing outside [0, 1024) is dropped.  A word read signed is p < 1024 exactly when it is p's word:
  the same rows, the same sums and counts.

  From sums and counts both programs run the same chain, operation for operation: mean = sum / max(count, 1)
  where count > 0, else 0; the product with the 256 × 1 weights plus the bias; 1 / (1 + exp(−z)).  Equal sums and
  counts give equal results; no law used needs finiteness, so the precondition is never opened.

  The three frames: the kernel's two are the generated frame certificates; the reference's is its run with the
  result dropped.  The ideal pass rewrote nothing, so the idealization claim is `True`.
-/
import proofs.«411404_j23450521436278_3_alg».proof.Defs
import proofs.«411404_j23450521436278_3_alg».proof.Proof.Gen.Kernel
import proofs.«411404_j23450521436278_3_alg».proof.Proof.Gen.Kernel.Skeleton
import proofs.«411404_j23450521436278_3_alg».proof.Proof.Gen.Kernel.Launch
import proofs.«411404_j23450521436278_3_alg».proof.Proof.Gen.Kernel.Points
import proofs.«411404_j23450521436278_3_alg».proof.Proof.Gen.Kernel.Frame
import proofs.«411404_j23450521436278_3_alg».proof.Proof.Gen.KernelIdeal
import proofs.«411404_j23450521436278_3_alg».proof.Proof.Gen.KernelIdeal.Skeleton
import proofs.«411404_j23450521436278_3_alg».proof.Proof.Gen.KernelIdeal.Launch
import proofs.«411404_j23450521436278_3_alg».proof.Proof.Gen.KernelIdeal.Points
import proofs.«411404_j23450521436278_3_alg».proof.Proof.Gen.KernelIdeal.Frame
import proofs.«411404_j23450521436278_3_alg».proof.Proof.Gen.ReferenceIdeal
import proofs.«411404_j23450521436278_3_alg».proof.Proof.Gen.Pre_finite_inputs
import proofs.«411404_j23450521436278_3_alg».proof.Proof.KRun
import proofs.«411404_j23450521436278_3_alg».proof.Proof.KReduce
import proofs.«411404_j23450521436278_3_alg».proof.Proof.RefTail
import proofs.«411404_j23450521436278_3_alg».proof.Proof.RefScatter
import Idealize.ShloMosaic.Adequacy
import Idealize.ShloMosaic.Init

noncomputable section

namespace Cert.Proof

open Idealize.ShloMosaic Idealize.ShloMosaic.ValueIdx Idealize.SL.Sem Cert.SegMean

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The reference's scattered sums are the kernel's two runs' totals added: both are, at (p, d), the sum over all
    rows of indicator times entry. -/
theorem sums_eq (X : FVec Ideal Cert.ReferenceIdeal.S1000000x256 .f32) (I : IVec Cert.ReferenceIdeal.S1000000 32) :
    Cert.ReferenceIdeal.SegRefTail.scatSum (F := Ideal) X I
      = Cert.KernelIdeal.SegKTail.sumsOf (F := Ideal) (runsSum X I) := by
  funext j
  obtain ⟨p, d, rfl⟩ : ∃ (p : Fin 1024) (d : Fin 256), j = ix2 p d := ⟨j 0, j 1, eq_ix2 j⟩
  exact (Cert.ReferenceIdeal.SegRef.scatterSum_apply X I p d).trans (Cert.KernelIdeal.SegReduce.reduceSum_apply X I p d).symm

/-- The reference's scattered counts are the kernel's two runs' counts added. -/
theorem cnts_eq (I : IVec Cert.ReferenceIdeal.S1000000 32) :
    Cert.ReferenceIdeal.SegRefTail.scatCnt (F := Ideal) I
      = Cert.KernelIdeal.SegKTail.cntsOf (F := Ideal) (runsCnt I) := by
  funext j
  obtain ⟨p, rfl⟩ : ∃ p : Fin 1024, j = ix1 p := ⟨j 0, eq_ix1 j⟩
  exact (Cert.ReferenceIdeal.SegRef.scatterCnt_apply I p).trans (Cert.KernelIdeal.SegReduce.reduceCnt_apply I p).symm

/-- Both programs end at the common chain of equal sums and counts, of arguments that agree. -/
theorem algebraic : Cert.algebraic_KernelIdeal_ReferenceIdeal := by
  intro m ρ m' ρ' _ hagree
  refine ⟨fun c => Cert.KernelIdeal.SegRun.result m c, Cert.KernelIdeal.SegRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, -, -, -, -, a5, -, a7, a8⟩ := hagree c
  refine (Cert.ReferenceIdeal.SegRefTail.term_eq _ _ _ _).trans ?_
  rw [a0, a5, a7, a8, sums_eq, cnts_eq]
  have e0 := Cert.KernelIdeal.Gen.V_main_arg0 m c
  show _ = Cert.KernelIdeal.SegRun.result m c
  unfold Cert.KernelIdeal.SegRun.result Cert.KernelIdeal.SegInv.nodes Cert.KernelIdeal.SegInv.words
  rw [e0]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
